-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x768 : Shape := ⟨3, ![8, 1024, 768]⟩
abbrev S2304x768 : Shape := ⟨2, ![2304, 768]⟩
abbrev S768x768 : Shape := ⟨2, ![768, 768]⟩
abbrev S768 : Shape := ⟨1, ![768]⟩
abbrev S_ : Shape := ⟨0, ![]⟩

class Facts : Prop where
  bcast_S_S8x1024x768 : S_.BroadcastsInDim S8x1024x768 (![] : Fin 0 → Fin S8x1024x768.rank)
  reducesTo_S8x1024x768_S_d0_1_2 : S8x1024x768.ReducesTo [0, 1, 2] S_
  h_S_ : 0 < S_.numel
  bcast_S_S2304x768 : S_.BroadcastsInDim S2304x768 (![] : Fin 0 → Fin S2304x768.rank)
  reducesTo_S2304x768_S_d0_1 : S2304x768.ReducesTo [0, 1] S_
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_v13 : IVec S_ 1) (main_v16 : IVec S768 1) : IVec S_ 1 :=
  let main_c_5 : IVec S_ 1 := constantI S_ 1 1#1
  let main_v17 : IVec S_ 1 := (fun x v => Host.reduce IntOp.andi x v reducesTo_S768_S_d0 h_S_) main_v16 main_c_5
  let main_v18 : IVec S_ 1 := andi main_v13 main_v17
  main_v18

def fn {F : FTy → Type} [FloatOps F] (main_arg0 : FVec F S8x1024x768 .f32) (main_arg1 : FVec F S2304x768 .f32) (main_arg2 : FVec F S768x768 .f32) (main_arg3 : FVec F S768 .f32) : IVec S_ 1 :=
  let main_v0 : FVec F S8x1024x768 .f32 := Host.absf main_arg0
  let main_cst : FVec F S_ .f32 := constant S_ .f32 0x7F800000#32
  let main_v1 : FVec F S8x1024x768 .f32 := broadcastInDim S8x1024x768 ![] bcast_S_S8x1024x768 main_cst
  let main_v2 : IVec S8x1024x768 1 := cmpf .olt main_v0 main_v1
  let main_c : IVec S_ 1 := constantI S_ 1 1#1
  let main_v3 : IVec S_ 1 := (fun x v => Host.reduce IntOp.andi x v reducesTo_S8x1024x768_S_d0_1_2 h_S_) main_v2 main_c
  let main_v4 : FVec F S2304x768 .f32 := Host.absf main_arg1
  let main_cst_0 : FVec F S_ .f32 := constant S_ .f32 0x7F800000#32
  let main_v5 : FVec F S2304x768 .f32 := broadcastInDim S2304x768 ![] bcast_S_S2304x768 main_cst_0
  let main_v6 : IVec S2304x768 1 := cmpf .olt main_v4 main_v5
  let main_c_1 : IVec S_ 1 := constantI S_ 1 1#1
  let main_v7 : IVec S_ 1 := (fun x v => Host.reduce IntOp.andi x v reducesTo_S2304x768_S_d0_1 h_S_) main_v6 main_c_1
  let main_v8 : IVec S_ 1 := andi main_v3 main_v7
  let main_v9 : FVec F S768x768 .f32 := Host.absf main_arg2
  let main_cst_2 : FVec F S_ .f32 := constant S_ .f32 0x7F800000#32
  let main_v10 : FVec F S768x768 .f32 := broadcastInDim S768x768 ![] bcast_S_S768x768 main_cst_2
  let main_v11 : IVec S768x768 1 := cmpf .olt main_v9 main_v10
  let main_c_3 : IVec S_ 1 := constantI S_ 1 1#1
  let main_v12 : IVec S_ 1 := (fun x v => Host.reduce IntOp.andi x v reducesTo_S768x768_S_d0_1 h_S_) main_v11 main_c_3
  let main_v13 : IVec S_ 1 := andi main_v8 main_v12
  let main_v14 : FVec F S768 .f32 := Host.absf main_arg3
  let main_cst_4 : FVec F S_ .f32 := constant S_ .f32 0x7F800000#32
  let main_v15 : FVec F S768 .f32 := broadcastInDim S768 ![] bcast_S_S768 main_cst_4
  let main_v16 : IVec S768 1 := cmpf .olt main_v14 main_v15
  fn_part1 (F := F) main_v13 main_v16
-- ==== Kernel.lean ====
abbrev S8x1024x768 : Shape := ⟨3, ![8, 1024, 768]⟩
abbrev S2304x768 : Shape := ⟨2, ![2304, 768]⟩
abbrev S768x768 : Shape := ⟨2, ![768, 768]⟩
abbrev S768 : Shape := ⟨1, ![768]⟩
abbrev S8192x768 : Shape := ⟨2, ![8192, 768]⟩
abbrev S8192x2304 : Shape := ⟨2, ![8192, 2304]⟩
abbrev S512x768 : Shape := ⟨2, ![512, 768]⟩
abbrev S256x768 : Shape := ⟨2, ![256, 768]⟩
abbrev S512x256 : Shape := ⟨2, ![512, 256]⟩
abbrev S8x1024x12x64 : Shape := ⟨4, ![8, 1024, 12, 64]⟩
abbrev S8x12x1024x64 : Shape := ⟨4, ![8, 12, 1024, 64]⟩
abbrev S1x1x1024x64 : Shape := ⟨4, ![1, 1, 1024, 64]⟩
abbrev S1024x64 : Shape := ⟨2, ![1024, 64]⟩
abbrev S1024x1024 : Shape := ⟨2, ![1024, 1024]⟩
abbrev S1x768 : Shape := ⟨2, ![1, 768]⟩
abbrev S1x256 : Shape := ⟨2, ![1, 256]⟩

abbrev nBuf : Space → Nat
  | .hbm => 21
  | .vmem => 22
  | .smem => 0
  | _ => 0

abbrev bufTy : (tb : Table) → Fin (tcTables nBuf tb) → BufTy
  | .hbm, ⟨0, _⟩ => ⟨S8x1024x768, .f32⟩
  | .hbm, ⟨1, _⟩ => ⟨S2304x768, .f32⟩
  | .hbm, ⟨2, _⟩ => ⟨S768x768, .f32⟩
  | .hbm, ⟨3, _⟩ => ⟨S768, .f32⟩
  | .hbm, ⟨4, _⟩ => ⟨S8192x768, .f32⟩
  | .hbm, ⟨5, _⟩ => ⟨S8192x2304, .f32⟩
  | .hbm, ⟨6, _⟩ => ⟨S8192x768, .f32⟩
  | .hbm, ⟨7, _⟩ => ⟨S8192x768, .f32⟩
  | .hbm, ⟨8, _⟩ => ⟨S8192x768, .f32⟩
  | .hbm, ⟨9, _⟩ => ⟨S8x1024x12x64, .f32⟩
  | .hbm, ⟨10, _⟩ => ⟨S8x12x1024x64, .f32⟩
  | .hbm, ⟨11, _⟩ => ⟨S8x1024x12x64, .f32⟩
  | .hbm, ⟨12, _⟩ => ⟨S8x12x1024x64, .f32⟩
  | .hbm, ⟨13, _⟩ => ⟨S8x1024x12x64, .f32⟩
  | .hbm, ⟨14, _⟩ => ⟨S8x12x1024x64, .f32⟩
  | .hbm, ⟨15, _⟩ => ⟨S8x12x1024x64, .f32⟩
  | .hbm, ⟨16, _⟩ => ⟨S8x1024x12x64, .f32⟩
  | .hbm, ⟨17, _⟩ => ⟨S8192x768, .f32⟩
  | .hbm, ⟨18, _⟩ => ⟨S1x768, .f32⟩
  | .hbm, ⟨19, _⟩ => ⟨S8192x768, .f32⟩
  | .hbm, ⟨20, _⟩ => ⟨S8x1024x768, .f32⟩
  | .local _ .vmem, ⟨0, _⟩ => ⟨S512x768, .f32⟩
  | .local _ .vmem, ⟨1, _⟩ => ⟨S512x768, .f32⟩
  | .local _ .vmem, ⟨2, _⟩ => ⟨S256x768, .f32⟩
  | .local _ .vmem, ⟨3, _⟩ => ⟨S256x768, .f32⟩
  | .local _ .vmem, ⟨4, _⟩ => ⟨S512x256, .f32⟩
  | .local _ .vmem, ⟨5, _⟩ => ⟨S512x256, .f32⟩
  | .local _ .vmem, ⟨6, _⟩ => ⟨S1x1x1024x64, .f32⟩
  | .local _ .vmem, ⟨7, _⟩ => ⟨S1x1x1024x64, .f32⟩
  | .local _ .vmem, ⟨8, _⟩ => ⟨S1x1x1024x64, .f32⟩
  | .local _ .vmem, ⟨9, _⟩ => ⟨S1x1x1024x64, .f32⟩
  | .local _ .vmem, ⟨10, _⟩ => ⟨S1x1x1024x64, .f32⟩
  | .local _ .vmem, ⟨11, _⟩ => ⟨S1x1x1024x64, .f32⟩
  | .local _ .vmem, ⟨12, _⟩ => ⟨S1x1x1024x64, .f32⟩
  | .local _ .vmem, ⟨13, _⟩ => ⟨S1x1x1024x64, .f32⟩
  | .local _ .vmem, ⟨14, _⟩ => ⟨S512x768, .f32⟩
  | .local _ .vmem, ⟨15, _⟩ => ⟨S512x768, .f32⟩
  | .local _ .vmem, ⟨16, _⟩ => ⟨S256x768, .f32⟩
  | .local _ .vmem, ⟨17, _⟩ => ⟨S256x768, .f32⟩
  | .local _ .vmem, ⟨18, _⟩ => ⟨S1x256, .f32⟩
  | .local _ .vmem, ⟨19, _⟩ => ⟨S1x256, .f32⟩
  | .local _ .vmem, ⟨20, _⟩ => ⟨S512x256, .f32⟩
  | .local _ .vmem, ⟨21, _⟩ => ⟨S512x256, .f32⟩
  | _, _ => ⟨S8x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg3_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc2_sem3_0 : DmaSem sig := 20
abbrev cc2_sem3_1 : DmaSem sig := 21

abbrev nD : Nat := 1
abbrev τ : Topo := Topo.v7x

variable {F : FTy → Type} [FloatOps F]

abbrev grid0 : Pipeline.Grid := ⟨2, ![16, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![8, 12], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x1x1024x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x1024x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1x1024x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x1x1024x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨2, ![16, 3], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S512x768 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S256x768 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S512x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

class Facts₀ : Prop where
  shapeCasts_S8x1024x768_S8192x768 : S8x1024x768.ShapeCasts S8192x768
  inb_S512x768_S512x768_0_0 : ∀ a, (![0, 0] : Fin 2 → Nat) a + S512x768.size a ≤ S512x768.size a
  h_S512x768 : 0 < S512x768.numel
  shapeCasts_S512x768_S512x768 : S512x768.ShapeCasts S512x768
  bitsLt_bf16_f32 : FTy.bits .bf16 < FTy.bits .f32
  inb_S256x768_S256x768_0_0 : ∀ a, (![0, 0] : Fin 2 → Nat) a + S256x768.size a ≤ S256x768.size a
  h_S256x768 : 0 < S256x768.numel
  inb_S512x256_S512x256_0_0 : ∀ a, (![0, 0] : Fin 2 → Nat) a + S512x256.size a ≤ S512x256.size a
  h_S512x256 : 0 < S512x256.numel
  slices_S8192x2304_S8192x768_0_0 : S8192x2304.Slices ![0, 0] S8192x768
  slices_S8192x2304_S8192x768_0_768 : S8192x2304.Slices ![0, 768] S8192x768
  slices_S8192x2304_S8192x768_0_1536 : S8192x2304.Slices ![0, 1536] S8192x768
  shapeCasts_S8192x768_S8x1024x12x64 : S8192x768.ShapeCasts S8x1024x12x64
  transposes_S8x1024x12x64_S8x12x1024x64_0_2_1_3 : S8x1024x12x64.Transposes [0, 2, 1, 3] S8x12x1024x64
  inb_S1x1x1024x64_S1x1x1024x64_0_0_0_0 : ∀ a, (![0, 0, 0, 0] : Fin 4 → Nat) a + S1x1x1024x64.size a ≤ S1x1x1024x64.size a
  h_S1x1x1024x64 : 0 < S1x1x1024x64.numel
  shapeCasts_S1x1x1024x64_S1024x64 : S1x1x1024x64.ShapeCasts S1024x64
  shapeCasts_S1024x64_S1x1x1024x64 : S1024x64.ShapeCasts S1x1x1024x64
  transposes_S8x12x1024x64_S8x1024x12x64_0_2_1_3 : S8x12x1024x64.Transposes [0, 2, 1, 3] S8x1024x12x64
  shapeCasts_S8x1024x12x64_S8192x768 : S8x1024x12x64.ShapeCasts S8192x768
  shapeCasts_S768_S1x768 : S768.ShapeCasts S1x768
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  shapeCasts_S8192x768_S8x1024x768 : S8192x768.ShapeCasts S8x1024x768
  dot_S512x768_S256x768_S512x256_1_1_0_0_n_n_wf : DotDims.WF S512x768 S256x768 S512x256 [1] [1] [0] [0] [] []
  dot_S1024x64_S1024x64_S1024x1024_1_1_0_0_n_n_wf : DotDims.WF S1024x64 S1024x64 S1024x1024 [1] [1] [0] [0] [] []
  dot_S1024x1024_S1024x64_S1024x64_1_0_0_1_n_n_wf : DotDims.WF S1024x1024 S1024x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x768.size a ≤ S8192x768.size a
  hwx0_0 : ∀ i : grid0.Coords, EltTy.bits .f32 = 32 ∨ (Rect.block (s := S8192x768) S512x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x768.size a ≤ S2304x768.size a
  hwx0_1 : ∀ i : grid0.Coords, EltTy.bits .f32 = 32 ∨ (Rect.block (s := S2304x768) S256x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S8192x2304.size a
  hwx0_2 : ∀ i : grid0.Coords, EltTy.bits .f32 = 32 ∨ (Rect.block (s := S8192x2304) S512x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1x1024x64.size a ≤ S8x12x1024x64.size a
  hwx1_0 : ∀ i : grid1.Coords, EltTy.bits .f32 = 32 ∨ (Rect.block (s := S8x12x1024x64) S1x1x1024x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x1024x64.size a ≤ S8x12x1024x64.size a
  hwx1_1 : ∀ i : grid1.Coords, EltTy.bits .f32 = 32 ∨ (Rect.block (s := S8x12x1024x64) S1x1x1024x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x1024x64.size a ≤ S8x12x1024x64.size a
  hwx1_2 : ∀ i : grid1.Coords, EltTy.bits .f32 = 32 ∨ (Rect.block (s := S8x12x1024x64) S1x1x1024x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x1024x64.size a ≤ S8x12x1024x64.size a
  hwx1_3 : ∀ i : grid1.Coords, EltTy.bits .f32 = 32 ∨ (Rect.block (s := S8x12x1024x64) S1x1x1024x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x768.size a ≤ S8192x768.size a
  hwx2_0 : ∀ i : grid2.Coords, EltTy.bits .f32 = 32 ∨ (Rect.block (s := S8192x768) S512x768.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S256x768.size a ≤ S768x768.size a
  hwx2_1 : ∀ i : grid2.Coords, EltTy.bits .f32 = 32 ∨ (Rect.block (s := S768x768) S256x768.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x768.size a
  hwx2_2 : ∀ i : grid2.Coords, EltTy.bits .f32 = 32 ∨ (Rect.block (s := S1x768) S1x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x256.size a ≤ S8192x768.size a
  hwx2_3 : ∀ i : grid2.Coords, EltTy.bits .f32 = 32 ∨ (Rect.block (s := S8192x768) S512x256.size (cc2_transform_3 i) (hinb2_3 i)).WholeWords (EltTy.packing .f32)

variable [Facts₀]

def dot_S512x768_S256x768_S512x256_1_1_0_0_n_n : DotDims S512x768 S256x768 S512x256 where
  lhsContracting := [1]
  rhsContracting := [1]
  lhsNonContracting := [0]
  rhsNonContracting := [0]
  lhsBatch := []
  rhsBatch := []
  wf := dot_S512x768_S256x768_S512x256_1_1_0_0_n_n_wf
def dot_S1024x64_S1024x64_S1024x1024_1_1_0_0_n_n : DotDims S1024x64 S1024x64 S1024x1024 where
  lhsContracting := [1]
  rhsContracting := [1]
  lhsNonContracting := [0]
  rhsNonContracting := [0]
  lhsBatch := []
  rhsBatch := []
  wf := dot_S1024x64_S1024x64_S1024x1024_1_1_0_0_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf

abbrev win0_0 : Pipeline.Window sig grid0 :=
  Pipeline.Window.ofSpec (Memref.whole main_v0) S512x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v6) S1x1x1024x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S1x1x1024x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10) S1x1x1024x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v11) S1x1x1024x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v13) S512x768.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg2) S256x768.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v14) S1x256.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v15) S512x256.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S8x1024x768 : Shape := ⟨3, ![8, 1024, 768]⟩
abbrev S2304x768 : Shape := ⟨2, ![2304, 768]⟩
abbrev S768x768 : Shape := ⟨2, ![768, 768]⟩
abbrev S768 : Shape := ⟨1, ![768]⟩
abbrev S8x1024x2304 : Shape := ⟨3, ![8, 1024, 2304]⟩
abbrev S8x1024x12x64 : Shape := ⟨4, ![8, 1024, 12, 64]⟩
abbrev S8x12x1024x64 : Shape := ⟨4, ![8, 12, 1024, 64]⟩
abbrev S8x12x1024x1024 : Shape := ⟨4, ![8, 12, 1024, 1024]⟩
abbrev S_ : Shape := ⟨0, ![]⟩
abbrev S1x1x768 : Shape := ⟨3, ![1, 1, 768]⟩

abbrev nBuf : Space → Nat
  | .hbm => 25
  | .vmem => 0
  | .smem => 0
  | _ => 0

abbrev bufTy : (tb : Table) → Fin (tcTables nBuf tb) → BufTy
  | .hbm, ⟨0, _⟩ => ⟨S8x1024x768, .f32⟩
  | .hbm, ⟨1, _⟩ => ⟨S2304x768, .f32⟩
  | .hbm, ⟨2, _⟩ => ⟨S768x768, .f32⟩
  | .hbm, ⟨3, _⟩ => ⟨S768, .f32⟩
  | .hbm, ⟨4, _⟩ => ⟨S8x1024x2304, .f32⟩
  | .hbm, ⟨5, _⟩ => ⟨S8x1024x768, .f32⟩
  | .hbm, ⟨6, _⟩ => ⟨S8x1024x768, .f32⟩
  | .hbm, ⟨7, _⟩ => ⟨S8x1024x768, .f32⟩
  | .hbm, ⟨8, _⟩ => ⟨S8x1024x12x64, .f32⟩
  | .hbm, ⟨9, _⟩ => ⟨S8x12x1024x64, .f32⟩
  | .hbm, ⟨10, _⟩ => ⟨S8x1024x12x64, .f32⟩
  | .hbm, ⟨11, _⟩ => ⟨S8x12x1024x64, .f32⟩
  | .hbm, ⟨12, _⟩ => ⟨S8x1024x12x64, .f32⟩
  | .hbm, ⟨13, _⟩ => ⟨S8x12x1024x64, .f32⟩
  | .hbm, ⟨14, _⟩ => ⟨S8x12x1024x1024, .f32⟩
  | .hbm, ⟨15, _⟩ => ⟨S_, .f32⟩
  | .hbm, ⟨16, _⟩ => ⟨S8x12x1024x1024, .f32⟩
  | .hbm, ⟨17, _⟩ => ⟨S8x12x1024x1024, .f32⟩
  | .hbm, ⟨18, _⟩ => ⟨S8x12x1024x64, .f32⟩
  | .hbm, ⟨19, _⟩ => ⟨S8x1024x12x64, .f32⟩
  | .hbm, ⟨20, _⟩ => ⟨S8x1024x768, .f32⟩
  | .hbm, ⟨21, _⟩ => ⟨S8x1024x768, .f32⟩
  | .hbm, ⟨22, _⟩ => ⟨S1x1x768, .f32⟩
  | .hbm, ⟨23, _⟩ => ⟨S8x1024x768, .f32⟩
  | .hbm, ⟨24, _⟩ => ⟨S8x1024x768, .f32⟩
  | _, _ => ⟨S8x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩

abbrev nD : Nat := 1
abbrev τ : Topo := Topo.v7x

variable {F : FTy → Type} [FloatOps F]

class Facts₀ : Prop where
  slices_S8x1024x2304_S8x1024x768_0_0_0 : S8x1024x2304.Slices ![0, 0, 0] S8x1024x768
  slices_S8x1024x2304_S8x1024x768_0_0_768 : S8x1024x2304.Slices ![0, 0, 768] S8x1024x768
  slices_S8x1024x2304_S8x1024x768_0_0_1536 : S8x1024x2304.Slices ![0, 0, 1536] S8x1024x768
  shapeCasts_S8x1024x768_S8x1024x12x64 : S8x1024x768.ShapeCasts S8x1024x12x64
  transposes_S8x1024x12x64_S8x12x1024x64_0_2_1_3 : S8x1024x12x64.Transposes [0, 2, 1, 3] S8x12x1024x64
  bcast_S_S8x12x1024x1024 : S_.BroadcastsInDim S8x12x1024x1024 (![] : Fin 0 → Fin S8x12x1024x1024.rank)
  transposes_S8x12x1024x64_S8x1024x12x64_0_2_1_3 : S8x12x1024x64.Transposes [0, 2, 1, 3] S8x1024x12x64
  shapeCasts_S8x1024x12x64_S8x1024x768 : S8x1024x12x64.ShapeCasts S8x1024x768
  bcast_S768_S1x1x768_2 : S768.BroadcastsInDim S1x1x768 (![2] : Fin 1 → Fin S1x1x768.rank)
  bcast_S1x1x768_S8x1024x768_0_1_2 : S1x1x768.BroadcastsInDim S8x1024x768 (![0, 1, 2] : Fin 3 → Fin S8x1024x768.rank)
  dot_S8x1024x768_S2304x768_S8x1024x2304_2_1_01_0_n_n_wf : DotDims.WF S8x1024x768 S2304x768 S8x1024x2304 [2] [1] [0, 1] [0] [] []
  dot_S8x12x1024x64_S8x12x1024x64_S8x12x1024x1024_3_3_2_2_01_01_wf : DotDims.WF S8x12x1024x64 S8x12x1024x64 S8x12x1024x1024 [3] [3] [2] [2] [0, 1] [0, 1]
  dot_S8x12x1024x1024_S8x12x1024x64_S8x12x1024x64_3_2_2_3_01_01_wf : DotDims.WF S8x12x1024x1024 S8x12x1024x64 S8x12x1024x64 [3] [2] [2] [3] [0, 1] [0, 1]
  dot_S8x1024x768_S768x768_S8x1024x768_2_1_01_0_n_n_wf : DotDims.WF S8x1024x768 S768x768 S8x1024x768 [2] [1] [0, 1] [0] [] []

variable [Facts₀]

def dot_S8x1024x768_S2304x768_S8x1024x2304_2_1_01_0_n_n : DotDims S8x1024x768 S2304x768 S8x1024x2304 where
  lhsContracting := [2]
  rhsContracting := [1]
  lhsNonContracting := [0, 1]
  rhsNonContracting := [0]
  lhsBatch := []
  rhsBatch := []
  wf := dot_S8x1024x768_S2304x768_S8x1024x2304_2_1_01_0_n_n_wf
def dot_S8x12x1024x64_S8x12x1024x64_S8x12x1024x1024_3_3_2_2_01_01 : DotDims S8x12x1024x64 S8x12x1024x64 S8x12x1024x1024 where
  lhsContracting := [3]
  rhsContracting := [3]
  lhsNonContracting := [2]
  rhsNonContracting := [2]
  lhsBatch := [0, 1]
  rhsBatch := [0, 1]
  wf := dot_S8x12x1024x64_S8x12x1024x64_S8x12x1024x1024_3_3_2_2_01_01_wf
def dot_S8x12x1024x1024_S8x12x1024x64_S8x12x1024x64_3_2_2_3_01_01 : DotDims S8x12x1024x1024 S8x12x1024x64 S8x12x1024x64 where
  lhsContracting := [3]
  rhsContracting := [2]
  lhsNonContracting := [2]
  rhsNonContracting := [3]
  lhsBatch := [0, 1]
  rhsBatch := [0, 1]
  wf := dot_S8x12x1024x1024_S8x12x1024x64_S8x12x1024x64_3_2_2_3_01_01_wf
def dot_S8x1024x768_S768x768_S8x1024x768_2_1_01_0_n_n : DotDims S8x1024x768 S768x768 S8x1024x768 where
  lhsContracting := [2]
  rhsContracting := [1]
  lhsNonContracting := [0, 1]
  rhsNonContracting := [0]
  lhsBatch := []
  rhsBatch := []
  wf := dot_S8x1024x768_S768x768_S8x1024x768_2_1_01_0_n_n_wf

class Facts : Prop extends Facts₀ where

variable [Facts]
-- ==== Proof.Spec.lean ====
/-
  The mathematics of the attention block, as whole-array functions over the extended reals.

  With `x : [8, 1024, 768]`, `w : [2304, 768]`, `u : [768, 768]`, `β : [768]`:
  * the fused projection `P[b, n, e] = Σ_k x[b, n, k] · w[e, k]` (`rowsDot`);
  * its three thirds cut into 12 heads of 64 lanes: `heads s P [b, h, n, d] = P[b, n, s + 64·h + d]`, for the offsets
    `s = 0, 768, 1536` (queries, keys, values);
  * the unnormalised attention of one head: `core q k v [b, h, i, d] = Σ_j ((Σ_δ q[b,h,i,δ] · k[b,h,j,δ]) · 8) · v[b,h,j,d]`;
  * the heads laid side by side again: `merged A [b, n, c] = A[b, c / 64, n, c % 64]`;
  * the output projection with its bias: `rowsDot (merged A) u [b, n, e] + β[e]`.

  Both programs compute `block x w u β`. The two-dimensional forms `matT` and `matTBias` are what one
  launch of a linear kernel leaves in its whole output array, the rows `[8, 1024]` merged into `8192`.
-/
import Idealize.ShloMosaic.PureOps.Ideal
import Idealize.ShloMosaic.Lib.ValueIdx

noncomputable section

open scoped BigOperators

namespace Cert.Attn

open Idealize.ShloMosaic Idealize.ShloMosaic.ValueIdx

/-- The float 8.0 (the square root of the head width 64), as both programs spell it. -/
abbrev eight : EReal := Ideal.ofBits .f32 0x41000000#32

/-- `x · wᵀ` on matrices: entry `(r, e)` is `Σ_k x[r, k] · w[e, k]`. -/
def matT (M K N : ℕ) (x : (⟨2, ![M, K]⟩ : Shape).Idx → EReal) (w : (⟨2, ![N, K]⟩ : Shape).Idx → EReal) :
    (⟨2, ![M, N]⟩ : Shape).Idx → EReal :=
  fun j => ∑ k : Fin K, x (ix2 (j 0) k) * w (ix2 (j 1) k)

/-- `x · wᵀ + β`, the bias a `[1, N]` row added to every row. -/
def matTBias (M K N : ℕ) (x : (⟨2, ![M, K]⟩ : Shape).Idx → EReal) (w : (⟨2, ![N, K]⟩ : Shape).Idx → EReal)
    (β : (⟨2, ![1, N]⟩ : Shape).Idx → EReal) : (⟨2, ![M, N]⟩ : Shape).Idx → EReal :=
  fun j => matT M K N x w j + β (ix2 (0 : Fin 1) (j 1))

/-- The same contraction with the rows kept as `[8, 1024]`: entry `(b, n, e)` is `Σ_k x[b, n, k] · w[e, k]`. -/
def rowsDot (N : ℕ) (x : (⟨3, ![8, 1024, 768]⟩ : Shape).Idx → EReal) (w : (⟨2, ![N, 768]⟩ : Shape).Idx → EReal) :
    (⟨3, ![8, 1024, N]⟩ : Shape).Idx → EReal :=
  fun i => ∑ k : Fin 768, x (ix3 (i 0) (i 1) k) * w (ix2 (i 2) k)

/-- Column `s + 64·h + d` of the fused projection, for an offset `s` that leaves room for 768 columns. -/
def headCol (s : ℕ) (hs : s + 768 ≤ 2304) (h : Fin 12) (d : Fin 64) : Fin 2304 :=
  ⟨s + (h.val * 64 + d.val), by have := h.isLt; have := d.isLt; omega⟩

/-- One third of the fused projection cut into heads: `[b, h, n, d] ↦ P[b, n, s + 64·h + d]`. -/
def heads (s : ℕ) (hs : s + 768 ≤ 2304) (P : (⟨3, ![8, 1024, 2304]⟩ : Shape).Idx → EReal) :
    (⟨4, ![8, 12, 1024, 64]⟩ : Shape).Idx → EReal :=
  fun i => P (ix3 (i 0) (i 2) (headCol s hs (i 1) (i 3)))

/-- The unnormalised attention of every head: scores `q · kᵀ` scaled by 8, then applied to the values. -/
def core (q k v : (⟨4, ![8, 12, 1024, 64]⟩ : Shape).Idx → EReal) : (⟨4, ![8, 12, 1024, 64]⟩ : Shape).Idx → EReal :=
  fun i => ∑ j : Fin 1024, ((∑ δ : Fin 64, q (ix4 (i 0) (i 1) (i 2) δ) * k (ix4 (i 0) (i 1) j δ)) * eight)
    * v (ix4 (i 0) (i 1) j (i 3))

/-- The head and lane of a merged column `c < 768`. -/
def colHead (c : Fin 768) : Fin 12 := ⟨c.val / 64, by have := c.isLt; omega⟩
def colLane (c : Fin 768) : Fin 64 := ⟨c.val % 64, Nat.mod_lt _ (by decide)⟩

/-- The heads laid side by side: `[b, n, c] ↦ A[b, c / 64, n, c % 64]`. -/
def merged (A : (⟨4, ![8, 12, 1024, 64]⟩ : Shape).Idx → EReal) : (⟨3, ![8, 1024, 768]⟩ : Shape).Idx → EReal :=
  fun i => A (ix4 (i 0) (colHead (i 2)) (i 1) (colLane (i 2)))

/-- The whole block: projection, attention per head, merge, output projection plus bias. -/
def block (x : (⟨3, ![8, 1024, 768]⟩ : Shape).Idx → EReal) (w : (⟨2, ![2304, 768]⟩ : Shape).Idx → EReal)
    (u : (⟨2, ![768, 768]⟩ : Shape).Idx → EReal) (β : (⟨1, ![768]⟩ : Shape).Idx → EReal) :
    (⟨3, ![8, 1024, 768]⟩ : Shape).Idx → EReal :=
  fun i =>
    rowsDot 768 (merged (core (heads 0 (by decide) (rowsDot 2304 x w)) (heads 768 (by decide) (rowsDot 2304 x w))
      (heads 1536 (by decide) (rowsDot 2304 x w)))) u i + β (ix1 (i 2))

end Cert.Attn

end
-- ==== Proof.LibTransposedMatmul.lean ====
/-
  A matrix product that contracts BOTH operands on their last axis — an `M × K` array against an `N × K` array,
  the result `M × N` — read at one entry, at the ideal instance (floats are extended reals).

  Into a zero accumulator the entry `(r, c)` is the sum over `k` of `x[r, k] · w[c, k]`: the product of `x` with the
  transpose of `w`, without any transpose being formed. The dimension numbers contract axis 1 of each operand, the
  result's row is the left operand's row and the result's column is the right operand's ROW; re-indexing the
  one-axis contraction by its single coordinate gives the textbook sum.
-/
import Idealize.ShloMosaic.PureOps.Ideal.Laws
import Idealize.ShloMosaic.Lib.ValueIdx
import Idealize.ShloMosaic.Lib.Pipeline.Value

noncomputable section

open scoped BigOperators

namespace Cert.MatT

open Idealize.ShloMosaic Idealize.ShloMosaic.ValueIdx

/-- The left operand's row coordinate is the result's row coordinate. -/
theorem transposedRhs_lhs_row (M K N : Nat) (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin (⟨2, ![M, K]⟩ : Shape).rank) ∈ (DotDims.transposedRhs M K N).lhsBatch by simp [DotDims.transposedRhs]),
    dif_pos (show (0 : Fin (⟨2, ![M, K]⟩ : Shape).rank) ∈ (DotDims.transposedRhs M K N).lhsNonContracting by simp [DotDims.transposedRhs])]
  rfl

/-- The right operand's ROW coordinate is the result's column coordinate. -/
theorem transposedRhs_rhs_row (M K N : Nat) (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin (⟨2, ![N, K]⟩ : Shape).rank) ∈ (DotDims.transposedRhs M K N).rhsBatch by simp [DotDims.transposedRhs]),
    dif_pos (show (0 : Fin (⟨2, ![N, K]⟩ : Shape).rank) ∈ (DotDims.transposedRhs M K N).rhsNonContracting by simp [DotDims.transposedRhs])]
  rfl

/-- A product contracting both operands' last axes, into a zero accumulator, read at an entry: the sum over the
    contracted index of the products of the two ROWS' entries. -/
theorem transposedRhs_matmul_apply {φ₁ φ₂ : FTy} (M K N : Nat) (prec : Option ContractPrecision)
    (x : FVec Ideal ⟨2, ![M, K]⟩ φ₁) (w : FVec Ideal ⟨2, ![N, K]⟩ φ₂) (j : (⟨2, ![M, N]⟩ : Shape).Idx) :
    FloatOps.matmul (DotDims.transposedRhs M K N) prec x w (constant ⟨2, ![M, N]⟩ .f32 0x00000000#32) j
      = ∑ k : Fin K, x (ix2 (j 0) k) * w (ix2 (j 1) k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx j ((contrEquiv1 (DotDims.transposedRhs M K N) K rfl rfl).symm k) = ix2 (j 0) k :=
    funext fun a => Fin.ext (by
      match a with
      | ⟨0, _⟩ => exact transposedRhs_lhs_row M K N _ _
      | ⟨1, _⟩ => exact ((DotDims.transposedRhs M K N).lhsIdx_val_of_single rfl _ _).trans hk)
  have er : (DotDims.transposedRhs M K N).rhsIdx j ((contrEquiv1 (DotDims.transposedRhs M K N) K rfl rfl).symm k) = ix2 (j 1) k :=
    funext fun a => Fin.ext (by
      match a with
      | ⟨0, _⟩ => exact transposedRhs_rhs_row M K N _ _
      | ⟨1, _⟩ => exact ((DotDims.transposedRhs M K N).rhsIdx_val_of_single rfl _ _).trans hk)
  rw [el, er]
  rfl

end Cert.MatT

end
-- ==== Proof.Region0.lean ====
/-
  The first launch (grid 16 × 9): block (i, j) of the [8192, 2304] output is rows 512·i.. of the first operand
  contracted with rows 256·j.. of the second, so the whole array is `x · wᵀ`.
-/
import proofs.«158285_j84585085927925_1_alg».proof.Proof.Gen.KernelIdeal.Frame
import proofs.«158285_j84585085927925_1_alg».proof.Proof.Spec
import proofs.«158285_j84585085927925_1_alg».proof.Proof.LibTransposedMatmul
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Region0

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## The block product at an entry -/

/-- The origin of a block, as the constant function. -/
theorem origin_zero : (![0, 0] : Fin 2 → Nat) = fun _ => 0 := funext fun a => by fin_cases a <;> rfl

/-- The printed dimension numbers contract the last axis of both operands: `[512, 768]` against `[256, 768]`. -/
theorem dot_eq : dot_S512x768_S256x768_S512x256_1_1_0_0_n_n = DotDims.transposedRhs 512 768 256 := rfl

/-- Entry `(p, q)` of the block the body stores: row `p` of the first block against row `q` of the second. -/
theorem pay_apply (x0 : Vec Ideal S512x768 .f32) (x1 : Vec Ideal S256x768 .f32) (p : Fin 512) (q : Fin 256) :
    k0_pay1 x0 x1 (ix2 p q) = ∑ k : Fin 768, x0 (ix2 p k) * x1 (ix2 q k) := by
  unfold k0_pay1
  simp only [matmul]
  rw [dot_eq, shapeCast_self]
  exact Cert.MatT.transposedRhs_matmul_apply 512 768 256 none _ _ (ix2 p q)

/-! ## Where the blocks sit -/

/-- Point `t` of the 16 × 9 grid is block row `t / 9`, block column `t % 9`: the first operand's block follows
    the block row, the second operand's the block column, the output's both. -/
theorem index_facts : ∀ t : Fin cfg0.N,
    win0_0.index t (0 : Fin 2) = t.val / 9 ∧ win0_0.index t (1 : Fin 2) = 0
    ∧ win0_1.index t (0 : Fin 2) = t.val % 9 ∧ win0_1.index t (1 : Fin 2) = 0
    ∧ win0_2.index t (0 : Fin 2) = t.val / 9 ∧ win0_2.index t (1 : Fin 2) = t.val % 9 :=
  (by decide +kernel : ∀ t : Fin grid0.N, _)

/-- Row `p` of block row `t / 9`, as a row of the whole `[8192, ·]` array. -/
def row (t : Fin cfg0.N) (p : Fin 512) : Fin 8192 :=
  ⟨t.val / 9 * 512 + p.val, by have ht : t.val < 144 := t.isLt; have := p.isLt; omega⟩

/-- Row `q` of block column `t % 9`, as a row of the second operand and a column of the output. -/
def col (t : Fin cfg0.N) (q : Fin 256) : Fin 2304 :=
  ⟨t.val % 9 * 256 + q.val, by have ht : t.val < 144 := t.isLt; have := q.isLt; omega⟩

/-- The first operand's block at point `t` is its rows `512 · (t / 9) ..`, every column. -/
theorem blk0_apply (c : Dev nD) (t : Fin cfg0.N) (p : Fin 512) (k : Fin 768) :
    iblk0 V c 0 t (ix2 p k) = V c main_v0 (ix2 (row t p) k) := by
  obtain ⟨e0, e1, -, -, -, -⟩ := index_facts t
  show V c main_v0 (((cfg0.win 0).blk t).view.emb (ix2 p k)) = V c main_v0 (ix2 (row t p) k)
  refine congrArg _ (funext fun a => Fin.ext ?_)
  match a with
  | ⟨0, _⟩ => show win0_0.index t (0 : Fin 2) * 512 + 1 * p.val = t.val / 9 * 512 + p.val; rw [e0]; omega
  | ⟨1, _⟩ => show win0_0.index t (1 : Fin 2) * 768 + 1 * k.val = k.val; rw [e1]; omega

/-- The second operand's block at point `t` is its rows `256 · (t % 9) ..`, every column. -/
theorem blk1_apply (c : Dev nD) (t : Fin cfg0.N) (q : Fin 256) (k : Fin 768) :
    iblk0 V c 1 t (ix2 q k) = V c main_arg1 (ix2 (col t q) k) := by
  obtain ⟨-, -, e2, e3, -, -⟩ := index_facts t
  show V c main_arg1 (((cfg0.win 1).blk t).view.emb (ix2 q k)) = V c main_arg1 (ix2 (col t q) k)
  refine congrArg _ (funext fun a => Fin.ext ?_)
  match a with
  | ⟨0, _⟩ => show win0_1.index t (0 : Fin 2) * 256 + 1 * q.val = t.val % 9 * 256 + q.val; rw [e2]; omega
  | ⟨1, _⟩ => show win0_1.index t (1 : Fin 2) * 768 + 1 * k.val = k.val; rw [e3]; omega

/-- Entry `(p, q)` of the output's block at point `t` is entry `(row t p, col t q)` of the array. -/
theorem blk2_emb (t : Fin cfg0.N) (p : Fin 512) (q : Fin 256) :
    ((cfg0.win 2).blk t).view.emb (ix2 p q) = ix2 (row t p) (col t q) := by
  obtain ⟨-, -, -, -, e4, e5⟩ := index_facts t
  refine funext fun a => Fin.ext ?_
  match a with
  | ⟨0, _⟩ => show win0_2.index t (0 : Fin 2) * 512 + 1 * p.val = t.val / 9 * 512 + p.val; rw [e4]; omega
  | ⟨1, _⟩ => show win0_2.index t (1 : Fin 2) * 256 + 1 * q.val = t.val % 9 * 256 + q.val; rw [e5]; omega

/-! ## What a point writes back -/

/-- Point `t` writes back block `t` of `x · wᵀ`. -/
theorem flushed_eq (c : Dev nD) (t : Fin cfg0.N) :
    (dat0 (F := Ideal) V c).flushed 2 t
      = ((cfg0.win 2).blk t).view.read (Elt Ideal) (Cert.Attn.matT 8192 768 2304 (V c main_v0) (V c main_arg1)) := by
  show (cfg0.win 2).cut (grid0.coords t) ((dat0 V c).after 2 t) = _
  rw [after0_2]
  unfold out0_2
  rw [View.canon_unit_zero origin_zero]
  simp only [View.ld_unit_zero (S := S512x768) origin_zero, View.ld_unit_zero (S := S256x768) origin_zero]
  funext j
  obtain ⟨p, q, rfl⟩ : ∃ (p : Fin 512) (q : Fin 256), j = (ix2 p q : S512x256.Idx) :=
    ⟨j 0, j 1, eq_ix2 (n0 := 512) (n1 := 256) j⟩
  show k0_pay1 (iblk0 V c 0 t) (iblk0 V c 1 t) (ix2 p q)
    = Cert.Attn.matT 8192 768 2304 (V c main_v0) (V c main_arg1) (((cfg0.win 2).blk t).view.emb (ix2 p q))
  rw [pay_apply, blk2_emb]
  unfold Cert.Attn.matT
  refine Finset.sum_congr rfl fun k _ => ?_
  rw [blk0_apply, blk1_apply]

/-! ## The blocks fill the array -/

/-- An entry of the array is in point `t`'s block iff each coordinate is in the block's range on its axis. -/
theorem mem_blk (t : Fin cfg0.N) (i : S8192x2304.Idx) :
    i ∈ ((cfg0.win 2).blk t).view.set ↔ ∀ a : Fin 2, win0_2.index t a * S512x256.size a ≤ (i a).val
      ∧ (i a).val < win0_2.index t a * S512x256.size a + S512x256.size a := by
  show i ∈ ((View.whole main_v1).slice (win0_2.rect t)).set ↔ _
  rw [View.set_slice_whole, Rect.mem_set_unit]
  exact Iff.rfl

/-- Every entry of the array is in the block of the point at its block row and block column. -/
theorem covered (i : S8192x2304.Idx) :
    ∃ t : Fin cfg0.N, (cfg0.win 2).flush t = true ∧ i ∈ ((cfg0.win 2).blk t).view.set := by
  have hi0 : (i 0).val < 8192 := (i 0).isLt
  have hi1 : (i 1).val < 2304 := (i 1).isLt
  have ht : (i 0).val / 512 * 9 + (i 1).val / 256 < cfg0.N := by
    show (i 0).val / 512 * 9 + (i 1).val / 256 < 144
    omega
  obtain ⟨-, -, -, -, e4, e5⟩ := index_facts ⟨(i 0).val / 512 * 9 + (i 1).val / 256, ht⟩
  have q0 : win0_2.index ⟨(i 0).val / 512 * 9 + (i 1).val / 256, ht⟩ (0 : Fin 2) = (i 0).val / 512 := by
    rw [e4]; show ((i 0).val / 512 * 9 + (i 1).val / 256) / 9 = (i 0).val / 512; omega
  have q1 : win0_2.index ⟨(i 0).val / 512 * 9 + (i 1).val / 256, ht⟩ (1 : Fin 2) = (i 1).val / 256 := by
    rw [e5]; show ((i 0).val / 512 * 9 + (i 1).val / 256) % 9 = (i 1).val / 256; omega
  refine ⟨⟨(i 0).val / 512 * 9 + (i 1).val / 256, ht⟩, flush0_2 _, ?_⟩
  rw [mem_blk]
  intro a
  match a with
  | ⟨0, _⟩ =>
    show win0_2.index _ (0 : Fin 2) * 512 ≤ (i 0).val ∧ (i 0).val < win0_2.index _ (0 : Fin 2) * 512 + 512
    rw [q0]; omega
  | ⟨1, _⟩ =>
    show win0_2.index _ (1 : Fin 2) * 256 ≤ (i 1).val ∧ (i 1).val < win0_2.index _ (1 : Fin 2) * 256 + 256
    rw [q1]; omega

/-- The whole output array of the first launch: `x · wᵀ` of the two arrays the launch finds. -/
theorem array (c : Dev nD) :
    (dat0 (F := Ideal) V c).arrAt 2 cfg0.N = Cert.Attn.matT 8192 768 2304 (V c main_v0) (V c main_arg1) := by
  exact (dat0 (F := Ideal) V c).arrAt_eq_of_cover 2 _ (fun t _ => flushed_eq V c t) covered

end Cert.KernelIdeal.Region0

end
-- ==== Proof.LibPlainMatmul.lean ====
/-
  Two general facts about vector operations read at an entry, at the ideal instance (floats are extended reals).

  * A plain `M × K` by `K × N` matrix product on the matrix unit into a zero accumulator, read at entry `(r, c)`,
    is the sum over `k` of `x[r, k] · w[k, c]`: the unit's dimension numbers contract the left operand's second axis
    with the right operand's first, so re-indexing the one-axis contraction by its coordinate gives the textbook sum.
  * A column (`[a, 1]`) broadcast to `[a, b]`, read at `(p, c)`, is the column's entry at row `p`.
-/
import Idealize.ShloMosaic.PureOps.Ideal.Laws
import Idealize.ShloMosaic.Lib.ValueIdx
import Idealize.ShloMosaic.Lib.Pipeline.Value

noncomputable section

open scoped BigOperators

namespace Cert.Gnn

open Idealize.ShloMosaic Idealize.ShloMosaic.ValueIdx

/-- The left operand's row coordinate is the result's row coordinate. -/
theorem plain_lhs_row (M K N : Nat) (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- The right operand's column coordinate is the result's column coordinate. -/
theorem plain_rhs_col (M K N : Nat) (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- A plain matrix product into a zero accumulator, read at an entry, is the sum over the contracted index of the
    operands' products. -/
theorem plain_matmul_apply {φ₁ φ₂ : FTy} (M K N : Nat) (prec : Option ContractPrecision)
    (x : FVec Ideal ⟨2, ![M, K]⟩ φ₁) (w : FVec Ideal ⟨2, ![K, N]⟩ φ₂) (j : (⟨2, ![M, N]⟩ : Shape).Idx) :
    FloatOps.matmul (DotDims.plain M K N) prec x w (constant ⟨2, ![M, N]⟩ .f32 0x00000000#32) j
      = ∑ k : Fin K, x (ix2 (j 0) k) * w (ix2 k (j 1)) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact plain_lhs_row M K N _ _
      | ⟨1, _⟩ => exact ((DotDims.plain M K N).lhsIdx_val_of_single rfl _ _).trans hk)
  have er : (DotDims.plain M K N).rhsIdx j ((contrEquiv1 (DotDims.plain M K N) K rfl rfl).symm k) = ix2 k (j 1) :=
    funext fun a => Fin.ext (by
      match a with
      | ⟨0, _⟩ => exact ((DotDims.plain M K N).rhsIdx_val_of_single rfl _ _).trans hk
      | ⟨1, _⟩ => exact plain_rhs_col M K N _ _)
  rw [el, er]
  rfl

/-- A column broadcast over a row axis: an `[a, 1]` array broadcast to `[a, b]` reads, at `(p, c)`, the column's
    entry at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Gnn

end
-- ==== Proof.Region1.lean ====
/-
  The attention launch (grid 8 × 12): point (b, h) reads the [1024, 64] slabs of q, k, v at batch b and head h and
  writes the slab `(q · kᵀ · 8) · v`; the slabs tile the [8, 12, 1024, 64] array.
-/
import proofs.«158285_j84585085927925_1_alg».proof.Proof.Gen.KernelIdeal.Frame
import proofs.«158285_j84585085927925_1_alg».proof.Proof.Spec
import proofs.«158285_j84585085927925_1_alg».proof.Proof.LibTransposedMatmul
import proofs.«158285_j84585085927925_1_alg».proof.Proof.LibPlainMatmul
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Region1

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## The payload of one grid point, read at an entry -/

/-- A `[1, 1, a, b]` array cast to `[a, b]` reads, at `(i, j)`, the operand at `(0, 0, i, j)`: the two indices have the
    same row-major position. -/
theorem shapeCast_11ab_ab_apply {α : Type} {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` array cast to `[1, 1, a, b]` reads, at `(u, u', i, j)`, the operand at `(i, j)`, whatever the two unit
    coordinates. -/
theorem shapeCast_ab_11ab_apply {α : Type} {a b : ℕ} (x : (⟨2, ![a, b]⟩ : Shape).Idx → α)
    (h : (⟨2, ![a, b]⟩ : Shape).ShapeCasts ⟨4, ![1, 1, a, b]⟩) (u u' : Fin 1) (i : Fin a) (j : Fin b) :
    shapeCast ⟨4, ![1, 1, a, b]⟩ x h (ix4 u u' i j) = x (ix2 i j) :=
  shapeCast_apply x h _ _ (by
    have hu : u.val = 0 := by omega
    have hu' : u'.val = 0 := by omega
    rw [Shape.rowMajor_val_four, Shape.rowMajor_val_two]
    show i.val * b + j.val = ((u.val * 1 + u'.val) * a + i.val) * b + j.val
    simp only [hu, hu', Nat.zero_mul, Nat.zero_add])

/-- The scores' dimension numbers (contract the last axis of both operands) are the library's transposed-right product
    at the literal sizes. -/
theorem dims_scores : dot_S1024x64_S1024x64_S1024x1024_1_1_0_0_n_n = DotDims.transposedRhs 1024 64 1024 := rfl

/-- The values' dimension numbers (contract the left operand's last axis with the right operand's first) are the
    library's plain product at the literal sizes. -/
theorem dims_values : dot_S1024x1024_S1024x64_S1024x64_1_0_0_1_n_n = DotDims.plain 1024 1024 64 := rfl

/-- The payload of one grid point at the entry `(0, 0, p, d)` of its block: the scores of row `p` against every row
    `j` of the keys, scaled by 8, applied to column `d` of the values. -/
theorem payload_apply (q0 k0 v0 : Vec Ideal S1x1x1024x64 .f32) (u u' : Fin 1) (p : Fin 1024) (d : Fin 64) :
    k1_pay1 (F := Ideal) q0 k0 v0 (ix4 u u' p d)
      = ∑ j : Fin 1024, ((∑ δ : Fin 64, q0 (ix4 (0 : Fin 1) (0 : Fin 1) p δ) * k0 (ix4 (0 : Fin 1) (0 : Fin 1) j δ))
          * Cert.Attn.eight) * v0 (ix4 (0 : Fin 1) (0 : Fin 1) j d) := by
  unfold k1_pay1
  rw [shapeCast_ab_11ab_apply, dims_values, dims_scores]
  unfold Idealize.ShloMosaic.matmul
  rw [Cert.Gnn.plain_matmul_apply]
  refine Finset.sum_congr rfl fun j _ => ?_
  rw [truncf_apply, mulf_apply, broadcast_apply, Cert.MatT.transposedRhs_matmul_apply, truncf_apply,
    shapeCast_11ab_ab_apply]
  refine congrArg₂ (· * ·) (congrArg₂ (· * ·) (Finset.sum_congr rfl fun δ _ => ?_) rfl) rfl
  rw [truncf_apply, truncf_apply, shapeCast_11ab_ab_apply, shapeCast_11ab_ab_apply]

/-! ## The four windows' blocks: the same index map, block `(b, h, 0, 0)` at the point of coordinates `(b, h)` -/

theorem zero_offsets : (![0, 0, 0, 0] : Fin 4 → Nat) = fun _ => 0 := funext fun a => by fin_cases a <;> rfl

/-- The printed index maps, decided once over the 96 grid points: every input window's block index is the output
    window's on each axis; the output's stays inside `8 × 12` on the first two axes and is `0` on the last two. -/
theorem index_facts : ∀ t : Fin cfg1.N,
    win1_0.index t (0 : Fin 4) = win1_3.index t (0 : Fin 4) ∧ win1_0.index t (1 : Fin 4) = win1_3.index t (1 : Fin 4)
    ∧ win1_0.index t (2 : Fin 4) = win1_3.index t (2 : Fin 4) ∧ win1_0.index t (3 : Fin 4) = win1_3.index t (3 : Fin 4)
    ∧ win1_1.index t (0 : Fin 4) = win1_3.index t (0 : Fin 4) ∧ win1_1.index t (1 : Fin 4) = win1_3.index t (1 : Fin 4)
    ∧ win1_1.index t (2 : Fin 4) = win1_3.index t (2 : Fin 4) ∧ win1_1.index t (3 : Fin 4) = win1_3.index t (3 : Fin 4)
    ∧ win1_2.index t (0 : Fin 4) = win1_3.index t (0 : Fin 4) ∧ win1_2.index t (1 : Fin 4) = win1_3.index t (1 : Fin 4)
    ∧ win1_2.index t (2 : Fin 4) = win1_3.index t (2 : Fin 4) ∧ win1_2.index t (3 : Fin 4) = win1_3.index t (3 : Fin 4)
    ∧ win1_3.index t (0 : Fin 4) ≤ 7 ∧ win1_3.index t (1 : Fin 4) ≤ 11
    ∧ win1_3.index t (2 : Fin 4) = 0 ∧ win1_3.index t (3 : Fin 4) = 0 :=
  (by decide +kernel : ∀ t : Fin grid1.N, _)

/-- Every block `(b, h, 0, 0)` of the output array is some point's. -/
theorem index_onto : ∀ (b : Fin 8) (h : Fin 12), ∃ t : Fin cfg1.N, win1_3.index t = ![b.val, h.val, 0, 0] :=
  (by decide +kernel : ∀ (b : Fin 8) (h : Fin 12), ∃ t : Fin grid1.N, win1_3.index t = ![b.val, h.val, 0, 0])

/-- The array index under entry `y` of the block the point `t` writes back. -/
def under (t : Fin cfg1.N) (y : S1x1x1024x64.Idx) : S8x12x1024x64.Idx := ((cfg1.win 3).blk t).view.emb y

/-- Rows and columns are not moved: the block spans the whole of the last two axes. -/
theorem under_row (t : Fin cfg1.N) (u u' : Fin 1) (p : Fin 1024) (d : Fin 64) : under t (ix4 u u' p d) 2 = p := by
  obtain ⟨-, -, -, -, -, -, -, -, -, -, -, -, -, -, e2, e3⟩ := index_facts t
  apply Fin.ext
  show win1_3.index t (2 : Fin 4) * 1024 + 1 * p.val = p.val
  omega

theorem under_col (t : Fin cfg1.N) (u u' : Fin 1) (p : Fin 1024) (d : Fin 64) : under t (ix4 u u' p d) 3 = d := by
  obtain ⟨-, -, -, -, -, -, -, -, -, -, -, -, -, -, e2, e3⟩ := index_facts t
  apply Fin.ext
  show win1_3.index t (3 : Fin 4) * 64 + 1 * d.val = d.val
  omega

/-- The queries' block at point `t`, read at `(0, 0, r, e)`, is the queries' array at the batch and head of the
    block the point writes, row `r`, column `e`. -/
theorem read_q (c : Dev nD) (t : Fin cfg1.N) (y : S1x1x1024x64.Idx) (r : Fin 1024) (e : Fin 64) :
    iblk1 V c 0 t (ix4 (0 : Fin 1) (0 : Fin 1) r e) = V c main_v6 (ix4 (under t y 0) (under t y 1) r e) := by
  obtain ⟨e0, e1, e2, e3, -, -, -, -, -, -, -, -, -, -, z2, z3⟩ := index_facts t
  show V c main_v6 (((cfg1.win 0).blk t).view.emb (ix4 (0 : Fin 1) (0 : Fin 1) r e)) = _
  refine congrArg (V c main_v6) (funext fun a => Fin.ext ?_)
  have hy0 : (y 0).val < 1 := (y 0).isLt
  have hy1 : (y 1).val < 1 := (y 1).isLt
  match a with
  | ⟨0, _⟩ => show win1_0.index t (0 : Fin 4) * 1 + 1 * 0 = win1_3.index t (0 : Fin 4) * 1 + 1 * (y 0).val; omega
  | ⟨1, _⟩ => show win1_0.index t (1 : Fin 4) * 1 + 1 * 0 = win1_3.index t (1 : Fin 4) * 1 + 1 * (y 1).val; omega
  | ⟨2, _⟩ => show win1_0.index t (2 : Fin 4) * 1024 + 1 * r.val = r.val; omega
  | ⟨3, _⟩ => show win1_0.index t (3 : Fin 4) * 64 + 1 * e.val = e.val; omega

/-- The keys' block likewise. -/
theorem read_k (c : Dev nD) (t : Fin cfg1.N) (y : S1x1x1024x64.Idx) (r : Fin 1024) (e : Fin 64) :
    iblk1 V c 1 t (ix4 (0 : Fin 1) (0 : Fin 1) r e) = V c main_v8 (ix4 (under t y 0) (under t y 1) r e) := by
  obtain ⟨-, -, -, -, e0, e1, e2, e3, -, -, -, -, -, -, z2, z3⟩ := index_facts t
  show V c main_v8 (((cfg1.win 1).blk t).view.emb (ix4 (0 : Fin 1) (0 : Fin 1) r e)) = _
  refine congrArg (V c main_v8) (funext fun a => Fin.ext ?_)
  have hy0 : (y 0).val < 1 := (y 0).isLt
  have hy1 : (y 1).val < 1 := (y 1).isLt
  match a with
  | ⟨0, _⟩ => show win1_1.index t (0 : Fin 4) * 1 + 1 * 0 = win1_3.index t (0 : Fin 4) * 1 + 1 * (y 0).val; omega
  | ⟨1, _⟩ => show win1_1.index t (1 : Fin 4) * 1 + 1 * 0 = win1_3.index t (1 : Fin 4) * 1 + 1 * (y 1).val; omega
  | ⟨2, _⟩ => show win1_1.index t (2 : Fin 4) * 1024 + 1 * r.val = r.val; omega
  | ⟨3, _⟩ => show win1_1.index t (3 : Fin 4) * 64 + 1 * e.val = e.val; omega

/-- The values' block likewise. -/
theorem read_v (c : Dev nD) (t : Fin cfg1.N) (y : S1x1x1024x64.Idx) (r : Fin 1024) (e : Fin 64) :
    iblk1 V c 2 t (ix4 (0 : Fin 1) (0 : Fin 1) r e) = V c main_v10 (ix4 (under t y 0) (under t y 1) r e) := by
  obtain ⟨-, -, -, -, -, -, -, -, e0, e1, e2, e3, -, -, z2, z3⟩ := index_facts t
  show V c main_v10 (((cfg1.win 2).blk t).view.emb (ix4 (0 : Fin 1) (0 : Fin 1) r e)) = _
  refine congrArg (V c main_v10) (funext fun a => Fin.ext ?_)
  have hy0 : (y 0).val < 1 := (y 0).isLt
  have hy1 : (y 1).val < 1 := (y 1).isLt
  match a with
  | ⟨0, _⟩ => show win1_2.index t (0 : Fin 4) * 1 + 1 * 0 = win1_3.index t (0 : Fin 4) * 1 + 1 * (y 0).val; omega
  | ⟨1, _⟩ => show win1_2.index t (1 : Fin 4) * 1 + 1 * 0 = win1_3.index t (1 : Fin 4) * 1 + 1 * (y 1).val; omega
  | ⟨2, _⟩ => show win1_2.index t (2 : Fin 4) * 1024 + 1 * r.val = r.val; omega
  | ⟨3, _⟩ => show win1_2.index t (3 : Fin 4) * 64 + 1 * e.val = e.val; omega

/-! ## What a point writes back, and the whole array -/

/-- What the point `t` writes back is its block of the attention of the three arrays as the launch finds them. -/
theorem flushed_eq (c : Dev nD) (t : Fin cfg1.N) :
    (dat1 (F := Ideal) V c).flushed 3 t
      = ((cfg1.win 3).blk t).view.read (Elt Ideal) (Cert.Attn.core (V c main_v6) (V c main_v8) (V c main_v10)) := by
  show (cfg1.win 3).cut (grid1.coords t) ((dat1 V c).after 3 t) = _
  rw [after1_3]
  unfold out1_3
  rw [View.canon_unit_zero zero_offsets]
  simp only [View.ld_unit_zero (S := S1x1x1024x64) zero_offsets]
  funext y
  obtain ⟨u, u', p, d, rfl⟩ : ∃ (u u' : Fin 1) (p : Fin 1024) (d : Fin 64), y = ix4 u u' p d :=
    ⟨y 0, y 1, y 2, y 3, eq_ix4 y⟩
  show k1_pay1 (F := Ideal) (iblk1 V c 0 t) (iblk1 V c 1 t) (iblk1 V c 2 t) (ix4 u u' p d)
    = Cert.Attn.core (V c main_v6) (V c main_v8) (V c main_v10) (under t (ix4 u u' p d))
  rw [payload_apply]
  unfold Cert.Attn.core
  rw [under_row, under_col]
  simp only [read_q V c t (ix4 u u' p d), read_k V c t (ix4 u u' p d), read_v V c t (ix4 u u' p d)]

/-- An index of the array is in the point `t`'s block iff each coordinate is in the block's range on its axis. -/
theorem mem_blk (t : Fin cfg1.N) (i : S8x12x1024x64.Idx) :
    i ∈ ((cfg1.win 3).blk t).view.set ↔ ∀ a : Fin 4, win1_3.index t a * S1x1x1024x64.size a ≤ (i a).val
      ∧ (i a).val < win1_3.index t a * S1x1x1024x64.size a + S1x1x1024x64.size a := by
  show i ∈ ((View.whole main_v11).slice (win1_3.rect t)).set ↔ _
  rw [View.set_slice_whole, Rect.mem_set_unit]
  exact Iff.rfl

/-- The blocks tile the array: the index `(b, h, r, e)` is in the block of the point whose block index is
    `(b, h, 0, 0)`, and that point writes back. -/
theorem covered (i : S8x12x1024x64.Idx) :
    ∃ t : Fin cfg1.N, (cfg1.win 3).flush t = true ∧ i ∈ ((cfg1.win 3).blk t).view.set := by
  have hi0 : (i 0).val < 8 := (i 0).isLt
  have hi1 : (i 1).val < 12 := (i 1).isLt
  have hi2 : (i 2).val < 1024 := (i 2).isLt
  have hi3 : (i 3).val < 64 := (i 3).isLt
  obtain ⟨t, ht⟩ := index_onto ⟨(i 0).val, hi0⟩ ⟨(i 1).val, hi1⟩
  have q0 : win1_3.index t (0 : Fin 4) = (i 0).val := congrFun ht 0
  have q1 : win1_3.index t (1 : Fin 4) = (i 1).val := congrFun ht 1
  have q2 : win1_3.index t (2 : Fin 4) = 0 := congrFun ht 2
  have q3 : win1_3.index t (3 : Fin 4) = 0 := congrFun ht 3
  refine ⟨t, flush1_3 t, ?_⟩
  rw [mem_blk]
  intro a
  match a with
  | ⟨0, _⟩ => show win1_3.index t (0 : Fin 4) * 1 ≤ (i 0).val ∧ (i 0).val < win1_3.index t (0 : Fin 4) * 1 + 1; omega
  | ⟨1, _⟩ => show win1_3.index t (1 : Fin 4) * 1 ≤ (i 1).val ∧ (i 1).val < win1_3.index t (1 : Fin 4) * 1 + 1; omega
  | ⟨2, _⟩ => show win1_3.index t (2 : Fin 4) * 1024 ≤ (i 2).val ∧ (i 2).val < win1_3.index t (2 : Fin 4) * 1024 + 1024; omega
  | ⟨3, _⟩ => show win1_3.index t (3 : Fin 4) * 64 ≤ (i 3).val ∧ (i 3).val < win1_3.index t (3 : Fin 4) * 64 + 64; omega

/-- The whole output array of the attention launch. -/
theorem array (c : Dev nD) :
    (dat1 (F := Ideal) V c).arrAt 3 cfg1.N = Cert.Attn.core (V c main_v6) (V c main_v8) (V c main_v10) := by
  exact (dat1 (F := Ideal) V c).arrAt_eq_of_cover 3 _ (fun t _ => flushed_eq V c t) covered

end Cert.KernelIdeal.Region1

end
-- ==== Proof.Region2.lean ====
/-
  The last launch (grid 16 × 3): block (i, j) of the [8192, 768] output is rows 512·i.. of the first operand contracted
  with rows 256·j.. of the weight, plus columns 256·j.. of the bias row.
-/
import proofs.«158285_j84585085927925_1_alg».proof.Proof.Gen.KernelIdeal.Frame
import proofs.«158285_j84585085927925_1_alg».proof.Proof.Spec
import proofs.«158285_j84585085927925_1_alg».proof.Proof.LibTransposedMatmul
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Region2

open Cert.KernelIdeal Cert.KernelIdeal.Gen Idealize.ShloMosaic Idealize.ShloMosaic.TcCoe Idealize.ShloMosaic.ValueIdx Idealize.SL.Sem
open Idealize.ShloMosaic.Pipeline (Dat Cfg Window)

/-! ## The index maps over the grid -/

/-- The zero offsets of a whole-buffer access, as the constant function. -/
theorem zero_offsets : (![0, 0] : Fin 2 → Nat) = fun _ => 0 :=
  funext fun a => match a with | ⟨0, _⟩ => rfl | ⟨1, _⟩ => rfl

/-- At grid point (i, j): the first operand's block is row-block i (all 768 columns), the weight's is row-block j
    (all 768 columns), the bias row's is column-block j, and the output's is (i, j) with i < 16, j < 3. -/
theorem block_indices : ∀ t : Fin cfg2.N,
    win2_0.index t (0 : Fin 2) = win2_3.index t (0 : Fin 2)
    ∧ win2_0.index t (1 : Fin 2) = 0
    ∧ win2_1.index t (0 : Fin 2) = win2_3.index t (1 : Fin 2)
    ∧ win2_1.index t (1 : Fin 2) = 0
    ∧ win2_2.index t (0 : Fin 2) = 0
    ∧ win2_2.index t (1 : Fin 2) = win2_3.index t (1 : Fin 2)
    ∧ win2_3.index t (0 : Fin 2) ≤ 15
    ∧ win2_3.index t (1 : Fin 2) ≤ 2 :=
  (by decide +kernel : ∀ t : Fin grid2.N, _)

/-- Every block (i, j) of the 16 × 3 tiling of the output is some grid point's. -/
theorem block_onto : ∀ (q0 : Fin 16) (q1 : Fin 3), ∃ t : Fin cfg2.N, win2_3.index t = ![q0.val, q1.val] :=
  (by decide +kernel : ∀ (q0 : Fin 16) (q1 : Fin 3), ∃ t : Fin grid2.N, win2_3.index t = ![q0.val, q1.val])

/-! ## The body's value at one entry -/

/-- The printed contraction contracts both operands' last axes. -/
theorem dims_eq : (dot_S512x768_S256x768_S512x256_1_1_0_0_n_n : DotDims S512x768 S256x768 S512x256)
    = DotDims.transposedRhs 512 768 256 := rfl

/-- A [1, 256] row broadcast to [512, 256], read at (p, q), is the row's entry q. -/
theorem bias_row_apply (x : FVec Ideal S1x256 .f32) (h : S1x256.Broadcasts S512x256) (p : Fin 512) (q : Fin 256) :
    broadcastTo S512x256 x h (ix2 p q) = x (ix2 (0 : Fin 1) q) := by
  refine broadcastTo_apply x h (ix2 p q) (ix2 (0 : Fin 1) q) ?_
  intro a
  match a with
  | ⟨0, _⟩ => rfl
  | ⟨1, _⟩ => rfl

/-- The stored value at (p, q): row p of the first block against row q of the weight block, plus the bias entry q. -/
theorem pay_apply (x0 : Vec Ideal S512x768 .f32) (x1 : Vec Ideal S256x768 .f32) (x2 : Vec Ideal S1x256 .f32)
    (p : Fin 512) (q : Fin 256) :
    k2_pay1 x0 x1 x2 (ix2 p q) = (∑ k : Fin 768, x0 (ix2 p k) * x1 (ix2 q k)) + x2 (ix2 (0 : Fin 1) q) := by
  unfold k2_pay1
  rw [addf_apply, dims_eq, shapeCast_self, shapeCast_self, bias_row_apply]
  congr 1
  exact Cert.MatT.transposedRhs_matmul_apply 512 768 256 none _ _ (ix2 p q)

/-! ## The blocks tile the output -/

/-- An entry of the output is in point t's block iff each coordinate is in the block's range on its axis. -/
theorem mem_blk (t : Fin cfg2.N) (i : S8192x768.Idx) :
    i ∈ ((cfg2.win 3).blk t).view.set ↔ ∀ a : Fin 2, win2_3.index t a * S512x256.size a ≤ (i a).val
      ∧ (i a).val < win2_3.index t a * S512x256.size a + S512x256.size a := by
  show i ∈ ((View.whole main_v15).slice (win2_3.rect t)).set ↔ _
  rw [View.set_slice_whole, Rect.mem_set_unit]
  exact Iff.rfl

/-- Every entry (r, e) of the output lies in a written block: block (r / 512, e / 256). -/
theorem covered (i : S8192x768.Idx) :
    ∃ t : Fin cfg2.N, (cfg2.win 3).flush t = true ∧ i ∈ ((cfg2.win 3).blk t).view.set := by
  have hi0 : (i 0).val < 8192 := (i 0).isLt
  have hi1 : (i 1).val < 768 := (i 1).isLt
  obtain ⟨t, ht⟩ := block_onto ⟨(i 0).val / 512, by omega⟩ ⟨(i 1).val / 256, by omega⟩
  have q0 : win2_3.index t (0 : Fin 2) = (i 0).val / 512 := congrFun ht 0
  have q1 : win2_3.index t (1 : Fin 2) = (i 1).val / 256 := congrFun ht 1
  refine ⟨t, flush2_3 t, ?_⟩
  rw [mem_blk]
  intro a
  match a with
  | ⟨0, _⟩ =>
    show win2_3.index t (0 : Fin 2) * 512 ≤ (i 0).val ∧ (i 0).val < win2_3.index t (0 : Fin 2) * 512 + 512
    omega
  | ⟨1, _⟩ =>
    show win2_3.index t (1 : Fin 2) * 256 ≤ (i 1).val ∧ (i 1).val < win2_3.index t (1 : Fin 2) * 256 + 256
    omega

variable (V : (c : Dev nD) → (b : Ref sig .tc) → Buf (Elt Ideal) ((c : Thread nD τ).loc b))

/-! ## The input blocks, read where the output's block sits -/

/-- Row p of the first operand's block at point t is row 512·i + p of the array, i the output's row-block. -/
theorem blk0_read (c : Dev nD) (t : Fin cfg2.N) (p : Fin 512) (k : Fin 768) (r : Fin 8192)
    (hr : r.val = win2_3.index t (0 : Fin 2) * 512 + p.val) :
    iblk2 V c 0 t (ix2 p k) = V c main_v13 (ix2 r k) := by
  obtain ⟨e0, e1, -⟩ := block_indices t
  show V c main_v13 (((cfg2.win 0).blk t).view.emb (ix2 p k)) = V c main_v13 (ix2 r k)
  refine congrArg (V c main_v13) (funext fun a => Fin.ext ?_)
  match a with
  | ⟨0, _⟩ => show win2_0.index t (0 : Fin 2) * 512 + 1 * p.val = r.val; omega
  | ⟨1, _⟩ => show win2_0.index t (1 : Fin 2) * 768 + 1 * k.val = k.val; omega

/-- Row q of the weight's block at point t is row 256·j + q of the weight, j the output's column-block. -/
theorem blk1_read (c : Dev nD) (t : Fin cfg2.N) (q : Fin 256) (k : Fin 768) (r : Fin 768)
    (hr : r.val = win2_3.index t (1 : Fin 2) * 256 + q.val) :
    iblk2 V c 1 t (ix2 q k) = V c main_arg2 (ix2 r k) := by
  obtain ⟨-, -, e2, e3, -⟩ := block_indices t
  show V c main_arg2 (((cfg2.win 1).blk t).view.emb (ix2 q k)) = V c main_arg2 (ix2 r k)
  refine congrArg (V c main_arg2) (funext fun a => Fin.ext ?_)
  match a with
  | ⟨0, _⟩ => show win2_1.index t (0 : Fin 2) * 256 + 1 * q.val = r.val; omega
  | ⟨1, _⟩ => show win2_1.index t (1 : Fin 2) * 768 + 1 * k.val = k.val; omega

/-- Entry q of the bias block at point t is entry 256·j + q of the bias row. -/
theorem blk2_read (c : Dev nD) (t : Fin cfg2.N) (q : Fin 256) (r : Fin 768)
    (hr : r.val = win2_3.index t (1 : Fin 2) * 256 + q.val) :
    iblk2 V c 2 t (ix2 (0 : Fin 1) q) = V c main_v14 (ix2 (0 : Fin 1) r) := by
  obtain ⟨-, -, -, -, e4, e5, -⟩ := block_indices t
  show V c main_v14 (((cfg2.win 2).blk t).view.emb (ix2 (0 : Fin 1) q)) = V c main_v14 (ix2 (0 : Fin 1) r)
  refine congrArg (V c main_v14) (funext fun a => Fin.ext ?_)
  match a with
  | ⟨0, _⟩ => show win2_2.index t (0 : Fin 2) * 1 + 1 * 0 = 0; omega
  | ⟨1, _⟩ => show win2_2.index t (1 : Fin 2) * 256 + 1 * q.val = r.val; omega

/-! ## What a grid point writes back -/

/-- Point t writes back block t of `x · wᵀ + β`. -/
theorem flushed_eq (c : Dev nD) (t : Fin cfg2.N) :
    (dat2 (F := Ideal) V c).flushed 3 t = ((cfg2.win 3).blk t).view.read (Elt Ideal)
      (Cert.Attn.matTBias 8192 768 768 (V c main_v13) (V c main_arg2) (V c main_v14)) := by
  show (cfg2.win 3).cut (grid2.coords t) ((dat2 V c).after 3 t) = _
  rw [after2_3]
  unfold out2_3
  rw [View.canon_unit_zero zero_offsets]
  simp only [View.ld_unit_zero (S := S512x768) zero_offsets, View.ld_unit_zero (S := S256x768) zero_offsets,
    View.ld_unit_zero (S := S1x256) zero_offsets]
  funext j
  obtain ⟨p, q, rfl⟩ : ∃ (p : Fin 512) (q : Fin 256), j = ix2 p q := ⟨j 0, j 1, eq_ix2 j⟩
  show k2_pay1 (iblk2 V c 0 t) (iblk2 V c 1 t) (iblk2 V c 2 t) (ix2 p q)
    = Cert.Attn.matTBias 8192 768 768 (V c main_v13) (V c main_arg2) (V c main_v14)
        (((cfg2.win 3).blk t).view.emb (ix2 p q))
  rw [pay_apply]
  unfold Cert.Attn.matTBias Cert.Attn.matT
  have h0 : ((((cfg2.win 3).blk t).view.emb (ix2 p q)) 0).val = win2_3.index t (0 : Fin 2) * 512 + p.val := by
    show win2_3.index t (0 : Fin 2) * 512 + 1 * p.val = _; omega
  have h1 : ((((cfg2.win 3).blk t).view.emb (ix2 p q)) 1).val = win2_3.index t (1 : Fin 2) * 256 + q.val := by
    show win2_3.index t (1 : Fin 2) * 256 + 1 * q.val = _; omega
  congr 1
  · refine Finset.sum_congr rfl fun k _ => ?_
    rw [blk0_read V c t p k _ h0, blk1_read V c t q k _ h1]
  · exact blk2_read V c t q _ h1

/-- The whole output array of the last launch: `x · wᵀ` plus the bias row. -/
theorem array (c : Dev nD) :
    (dat2 (F := Ideal) V c).arrAt 3 cfg2.N = Cert.Attn.matTBias 8192 768 768 (V c main_v13) (V c main_arg2) (V c main_v14) := by
  exact (dat2 (F := Ideal) V c).arrAt_eq_of_cover 3 _ (fun t _ => flushed_eq V c t) (fun i => covered i)

end Cert.KernelIdeal.Region2

end
-- ==== Proof.LibMergeRows.lean ====
/-
  A reshape that merges the two leading axes of a rank-3 array into one, or splits them again, read at an entry.

  Row-major order puts entry `(i, j, k)` of an `[a, b, c]` array at position `(i · b + j) · c + k`, and entry `(r, k)`
  of an `[m, c]` array at `r · c + k`; a reshape keeps positions. So with `r = i · b + j` the two entries are the same
  element, whichever way the reshape goes.
-/
import Idealize.ShloMosaic.Lib.ValueIdx
import Idealize.ShloMosaic.Lib.Pipeline.Value

noncomputable section

namespace Cert.MergeRows

open Idealize.ShloMosaic Idealize.ShloMosaic.ValueIdx

variable {α : Type}

/-- `[a, b, c]` reshaped to `[m, c]`: row `r = i · b + j`, column `k` reads entry `(i, j, k)`. -/
theorem shapeCast_abc_mc_apply {a b c m : ℕ} (x : (⟨3, ![a, b, c]⟩ : Shape).Idx → α)
    (h : (⟨3, ![a, b, c]⟩ : Shape).ShapeCasts ⟨2, ![m, c]⟩) (i : Fin a) (j : Fin b) (k : Fin c) (r : Fin m)
    (hr : r.val = i.val * b + j.val) :
    shapeCast ⟨2, ![m, c]⟩ x h (ix2 r k) = x (ix3 i j k) :=
  shapeCast_apply x h _ _ (by
    rw [Shape.rowMajor_val_three, Shape.rowMajor_val_two]
    show (i.val * b + j.val) * c + k.val = r.val * c + k.val
    rw [hr])

/-- `[m, c]` reshaped to `[a, b, c]`: entry `(i, j, k)` reads row `r = i · b + j`, column `k`. -/
theorem shapeCast_mc_abc_apply {a b c m : ℕ} (y : (⟨2, ![m, c]⟩ : Shape).Idx → α)
    (h : (⟨2, ![m, c]⟩ : Shape).ShapeCasts ⟨3, ![a, b, c]⟩) (i : Fin a) (j : Fin b) (k : Fin c) (r : Fin m)
    (hr : r.val = i.val * b + j.val) :
    shapeCast ⟨3, ![a, b, c]⟩ y h (ix3 i j k) = y (ix2 r k) :=
  shapeCast_apply y h _ _ (by
    rw [Shape.rowMajor_val_two, Shape.rowMajor_val_three]
    show r.val * c + k.val = (i.val * b + j.val) * c + k.val
    rw [hr])

end Cert.MergeRows

end
-- ==== Proof.ChainA.lean ====
/-
  From the launch to the attention launch's entry: the input is flattened to [8192, 768], the first launch leaves
  `x · wᵀ` in an [8192, 2304] array (the hypothesis `h0`, which the first launch's own module proves), and each third of
  its columns is cut into heads and transposed to [8, 12, 1024, 64]. Read at an entry, operand `[b, h, n, d]` is entry
  `[b, n, s + 64·h + d]` of the fused projection.
-/
import proofs.«158285_j84585085927925_1_alg».proof.Proof.Gen.KernelIdeal.Frame
import proofs.«158285_j84585085927925_1_alg».proof.Proof.Spec
import proofs.«158285_j84585085927925_1_alg».proof.Proof.LibMergeRows
import Idealize.ShloMosaic.Lib.Pipeline.Value
import Idealize.ShloMosaic.Lib.ValueIdx
import Idealize.ShloMosaic.Lib.StableHlo.Run

set_option maxRecDepth 16384

noncomputable section

open scoped BigOperators

namespace Cert.KernelIdeal.ChainA

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ) (ρ : Dev nD → PrngReg)

/-! ## The layout: slice, cut into heads, transpose, read at an entry -/

/-- Entry `[b, h, n, d]` of a block of 768 columns of an `[8192, 2304]` array, cut into 12 heads of 64 lanes and
    transposed to `[8, 12, 1024, 64]`, is entry `[b·1024 + n, s + 64·h + d]` of the array: the transpose reads
    `[b, n, h, d]`, the reshape keeps the row-major position, so reads row `b·1024 + n` and column `64·h + d` of the
    block, and the block starts at column `s`. -/
theorem cut_apply (s : ℕ) (hs : s + 768 ≤ 2304) (P : S8192x2304.Idx → EReal)
    (hsl : S8192x2304.Slices ![0, s] S8192x768) (b : Fin 8) (h : Fin 12) (n : Fin 1024) (d : Fin 64)
    (r : Fin 8192) (hr : r.val = b.val * 1024 + n.val) :
    transpose S8x12x1024x64 [0, 2, 1, 3]
        (shapeCast S8x1024x12x64 (extractStridedSlice S8192x768 ![0, s] P hsl) shapeCasts_S8192x768_S8x1024x12x64)
        transposes_S8x1024x12x64_S8x12x1024x64_0_2_1_3 (ix4 b h n d)
      = P (ix2 r (Cert.Attn.headCol s hs h d)) := by
  have hh := h.isLt
  have hd := d.isLt
  refine (transpose_apply [0, 2, 1, 3] _ transposes_S8x1024x12x64_S8x12x1024x64_0_2_1_3 (ix4 b h n d) (ix4 b n h d)
    (fun a => match a with | ⟨0, _⟩ => rfl | ⟨1, _⟩ => rfl | ⟨2, _⟩ => rfl | ⟨3, _⟩ => rfl)).trans ?_
  refine (shapeCast_apply _ shapeCasts_S8192x768_S8x1024x12x64 (ix4 b n h d)
    (ix2 r (⟨h.val * 64 + d.val, by omega⟩ : Fin 768)) ?_).trans ?_
  · rw [Shape.rowMajor_val_two, Shape.rowMajor_val_four]
    show r.val * 768 + (h.val * 64 + d.val) = ((b.val * 1024 + n.val) * 12 + h.val) * 64 + d.val
    rw [hr]; omega
  · exact extractStridedSlice_apply ![0, s] P hsl _ (ix2 r (Cert.Attn.headCol s hs h d)) (fun a => match a with
      | ⟨0, _⟩ => by show r.val = 0 + r.val; omega
      | ⟨1, _⟩ => rfl)

/-- A block of 768 columns of `x · wᵀ` over the flattened rows, cut into heads and transposed, is that block of the
    fused projection with its rows kept as `[8, 1024]`: at `[b, h, n, d]` both are
    `Σ_k x[b, n, k] · w[s + 64·h + d, k]`, row `b·1024 + n` of the flattened input being row `[b, n]` of the input. -/
theorem heads_of_matT (s : ℕ) (hs : s + 768 ≤ 2304) (x : S8x1024x768.Idx → EReal) (w : S2304x768.Idx → EReal)
    (P : S8192x2304.Idx → EReal)
    (hP : P = Cert.Attn.matT 8192 768 2304 (shapeCast S8192x768 x shapeCasts_S8x1024x768_S8192x768) w)
    (hsl : S8192x2304.Slices ![0, s] S8192x768) :
    transpose S8x12x1024x64 [0, 2, 1, 3]
        (shapeCast S8x1024x12x64 (extractStridedSlice S8192x768 ![0, s] P hsl) shapeCasts_S8192x768_S8x1024x12x64)
        transposes_S8x1024x12x64_S8x12x1024x64_0_2_1_3
      = Cert.Attn.heads s hs (Cert.Attn.rowsDot 2304 x w) := by
  funext i
  obtain ⟨b, h, n, d, rfl⟩ : ∃ (b : Fin 8) (h : Fin 12) (n : Fin 1024) (d : Fin 64), i = ix4 b h n d :=
    ⟨i 0, i 1, i 2, i 3, eq_ix4 i⟩
  have hb := b.isLt
  have hn := n.isLt
  rw [cut_apply s hs P hsl b h n d (⟨b.val * 1024 + n.val, by omega⟩ : Fin 8192) rfl, hP]
  show (∑ k : Fin 768, shapeCast S8192x768 x shapeCasts_S8x1024x768_S8192x768 (ix2 (⟨b.val * 1024 + n.val, by omega⟩ : Fin 8192) k)
      * w (ix2 (Cert.Attn.headCol s hs h d) k)) = ∑ k : Fin 768, x (ix3 b n k) * w (ix2 (Cert.Attn.headCol s hs h d) k)
  refine Finset.sum_congr rfl fun k _ => ?_
  rw [Cert.MergeRows.shapeCast_abc_mc_apply x shapeCasts_S8x1024x768_S8192x768 b n k _ rfl]

/-! ## What the buffers hold on the way -/

/-- Entering the first launch, the flattened input is the program's first argument reshaped to `[8192, 768]`. -/
theorem V1_main_v0 (c : Dev nD) :
    (V1 (F := Ideal) m ρ c main_v0 : S8192x768.Idx → EReal)
      = shapeCast S8192x768 (m ((c.tc : Thread nD τ).loc main_arg0)) shapeCasts_S8x1024x768_S8192x768 := by
  show StableHlo.after hostOps0 (W0 (F := Ideal) m ρ c) (Proc.devRef .tc main_v0) = _
  after_results
  rfl

/-- Entering the first launch, the weights are the program's second argument: the one operation before it writes
    another buffer. -/
theorem V1_main_arg1 (c : Dev nD) :
    V1 (F := Ideal) m ρ c main_arg1 = m ((c.tc : Thread nD τ).loc main_arg1) :=
  calc W1 (F := Ideal) m ρ c (Proc.devRef .tc main_arg1)
    _ = W0 m ρ c (Proc.devRef .tc main_arg1) := StableHlo.after_of_forall_not_mem (b := Proc.devRef .tc main_arg1) _ _ (List.forall_iff_forall_mem.mp (by
          simp only [hostOps0, List.Forall, StableHlo.reshape_writes, Finset.mem_singleton]
          exact StableHlo.devRef_ne_of_ne (by decide)))
    _ = m ((c : Thread nD τ).loc main_arg1) := rfl

/-- What the first launch leaves in its output array, as its own module states it. -/
abbrev FirstLaunch (c : Dev nD) : Prop :=
  (dat0 (F := Ideal) (V1 m ρ) c).arrAt 2 cfg0.N = Cert.Attn.matT 8192 768 2304 (V1 m ρ c main_v0) (V1 m ρ c main_arg1)

/-- Leaving the first launch, its output array is `x · wᵀ` of the flattened input and the weights as launched. -/
theorem projection (c : Dev nD) (h0 : FirstLaunch m ρ c) :
    (W2 (F := Ideal) m ρ c (Proc.devRef .tc main_v1) : S8192x2304.Idx → EReal)
      = Cert.Attn.matT 8192 768 2304
          (shapeCast S8192x768 (m ((c.tc : Thread nD τ).loc main_arg0)) shapeCasts_S8x1024x768_S8192x768)
          (m ((c.tc : Thread nD τ).loc main_arg1)) := by
  refine (W2_arr m ρ c 2).trans (h0.trans ?_)
  rw [V1_main_v0, V1_main_arg1]

/-- Each operand of the attention launch is a block of 768 columns of the first launch's output, reshaped to
    `[8, 1024, 12, 64]` and transposed to `[8, 12, 1024, 64]`. -/
theorem V3_main_v6 (c : Dev nD) :
    (V3 (F := Ideal) m ρ c main_v6 : S8x12x1024x64.Idx → EReal) =
      transpose S8x12x1024x64 [0, 2, 1, 3]
        (shapeCast S8x1024x12x64 (extractStridedSlice S8192x768 ![0, 0] (W2 (F := Ideal) m ρ c (Proc.devRef .tc main_v1)) slices_S8192x2304_S8192x768_0_0)
          shapeCasts_S8192x768_S8x1024x12x64) transposes_S8x1024x12x64_S8x12x1024x64_0_2_1_3 := by
  show StableHlo.after hostOps1 (W2 (F := Ideal) m ρ c) (Proc.devRef .tc main_v6) = _
  after_results
  rfl

theorem V3_main_v8 (c : Dev nD) :
    (V3 (F := Ideal) m ρ c main_v8 : S8x12x1024x64.Idx → EReal) =
      transpose S8x12x1024x64 [0, 2, 1, 3]
        (shapeCast S8x1024x12x64 (extractStridedSlice S8192x768 ![0, 768] (W2 (F := Ideal) m ρ c (Proc.devRef .tc main_v1)) slices_S8192x2304_S8192x768_0_768)
          shapeCasts_S8192x768_S8x1024x12x64) transposes_S8x1024x12x64_S8x12x1024x64_0_2_1_3 := by
  show StableHlo.after hostOps1 (W2 (F := Ideal) m ρ c) (Proc.devRef .tc main_v8) = _
  after_results
  rfl

theorem V3_main_v10 (c : Dev nD) :
    (V3 (F := Ideal) m ρ c main_v10 : S8x12x1024x64.Idx → EReal) =
      transpose S8x12x1024x64 [0, 2, 1, 3]
        (shapeCast S8x1024x12x64 (extractStridedSlice S8192x768 ![0, 1536] (W2 (F := Ideal) m ρ c (Proc.devRef .tc main_v1)) slices_S8192x2304_S8192x768_0_1536)
          shapeCasts_S8192x768_S8x1024x12x64) transposes_S8x1024x12x64_S8x12x1024x64_0_2_1_3 := by
  show StableHlo.after hostOps1 (W2 (F := Ideal) m ρ c) (Proc.devRef .tc main_v10) = _
  after_results
  rfl

/-- The queries the attention launch finds. -/
theorem queries (c : Dev nD) (h0 : FirstLaunch m ρ c) :
    V3 (F := Ideal) m ρ c main_v6 = Cert.Attn.heads 0 (by decide) (Cert.Attn.rowsDot 2304 (m ((c.tc : Thread nD τ).loc main_arg0)) (m ((c.tc : Thread nD τ).loc main_arg1))) := by
  exact (V3_main_v6 m ρ c).trans (heads_of_matT 0 _ _ _ _ (projection m ρ c h0) _)

/-- The keys the attention launch finds. -/
theorem keys (c : Dev nD) (h0 : FirstLaunch m ρ c) :
    V3 (F := Ideal) m ρ c main_v8 = Cert.Attn.heads 768 (by decide) (Cert.Attn.rowsDot 2304 (m ((c.tc : Thread nD τ).loc main_arg0)) (m ((c.tc : Thread nD τ).loc main_arg1))) := by
  exact (V3_main_v8 m ρ c).trans (heads_of_matT 768 _ _ _ _ (projection m ρ c h0) _)

/-- The values the attention launch finds. -/
theorem values (c : Dev nD) (h0 : FirstLaunch m ρ c) :
    V3 (F := Ideal) m ρ c main_v10 = Cert.Attn.heads 1536 (by decide) (Cert.Attn.rowsDot 2304 (m ((c.tc : Thread nD τ).loc main_arg0)) (m ((c.tc : Thread nD τ).loc main_arg1))) := by
  exact (V3_main_v10 m ρ c).trans (heads_of_matT 1536 _ _ _ _ (projection m ρ c h0) _)

end Cert.KernelIdeal.ChainA

end
-- ==== Proof.ChainB.lean ====
/-
  From the attention launch's exit to the result: its [8, 12, 1024, 64] output is transposed and flattened to [8192, 768],
  the bias becomes a [1, 768] row, the last launch leaves `a · uᵀ + β` (the hypothesis `h2`, which the last launch's own
  module proves), and the result is that array as [8, 1024, 768].
-/
import proofs.«158285_j84585085927925_1_alg».proof.Proof.Gen.KernelIdeal.Frame
import proofs.«158285_j84585085927925_1_alg».proof.Proof.Spec
import proofs.«158285_j84585085927925_1_alg».proof.Proof.LibMergeRows
import Idealize.ShloMosaic.Lib.Pipeline.Value
import Idealize.ShloMosaic.Lib.ValueIdx
import Idealize.ShloMosaic.Lib.StableHlo.Run

set_option maxRecDepth 16384

noncomputable section

open scoped BigOperators

namespace Cert.KernelIdeal.ChainB

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ) (ρ : Dev nD → PrngReg)

/-- Entry `(r, k)` of the merged-row form, `r = b · 1024 + n`: flat position `r · 768 + k` is position
    `((b · 1024 + n) · 12 + k / 64) · 64 + k % 64` of the `[8, 1024, 12, 64]` array, whose entry `[b, n, h, d]` is entry
    `[b, h, n, d]` of `A`. -/
theorem merge_read (A : S8x12x1024x64.Idx → EReal) (b : Fin 8) (n : Fin 1024) (k : Fin 768) (r : Fin 8192)
    (hr : r.val = b.val * 1024 + n.val) :
    shapeCast S8192x768 (transpose S8x1024x12x64 [0, 2, 1, 3] A transposes_S8x12x1024x64_S8x1024x12x64_0_2_1_3)
        shapeCasts_S8x1024x12x64_S8192x768 (ix2 r k)
      = Cert.Attn.merged A (ix3 b n k) := by
  refine (shapeCast_apply _ shapeCasts_S8x1024x12x64_S8192x768 (ix2 r k)
    (ix4 b n (Cert.Attn.colHead k) (Cert.Attn.colLane k)) ?_).trans ?_
  · rw [Shape.rowMajor_val_four, Shape.rowMajor_val_two]
    show ((b.val * 1024 + n.val) * 12 + k.val / 64) * 64 + k.val % 64 = r.val * 768 + k.val
    have := k.isLt
    omega
  · exact transpose_apply [0, 2, 1, 3] A transposes_S8x12x1024x64_S8x1024x12x64_0_2_1_3 _
      (ix4 b (Cert.Attn.colHead k) n (Cert.Attn.colLane k)) (fun a => match a with
        | ⟨0, _⟩ => rfl
        | ⟨1, _⟩ => rfl
        | ⟨2, _⟩ => rfl
        | ⟨3, _⟩ => rfl)

/-- The bias as a one-row matrix: entry `(0, e)` is entry `e`. -/
theorem bias_read (β : S768.Idx → EReal) (e : Fin 768) :
    shapeCast S1x768 β shapeCasts_S768_S1x768 (ix2 (0 : Fin 1) e) = β (ix1 e) := by
  refine shapeCast_apply β shapeCasts_S768_S1x768 (ix2 (0 : Fin 1) e) (ix1 e) ?_
  rw [Shape.rowMajor_val_one, Shape.rowMajor_val_two]
  show e.val = 0 * 768 + e.val
  omega

/-- The result's rows split again: entry `[b, n, e]` is entry `(b · 1024 + n, e)` of the matrix. -/
theorem split_read (Y : S8192x768.Idx → EReal) (b : Fin 8) (n : Fin 1024) (e : Fin 768) (r : Fin 8192)
    (hr : r.val = b.val * 1024 + n.val) :
    shapeCast S8x1024x768 Y shapeCasts_S8192x768_S8x1024x768 (ix3 b n e) = Y (ix2 r e) :=
  Cert.MergeRows.shapeCast_mc_abc_apply Y shapeCasts_S8192x768_S8x1024x768 b n e r hr

/-- One entry of `x · uᵀ + β` on merged rows, when row `r` of `x` is row `[b, n]` of `X`: the entry `[b, n, e]` of
    `rowsDot X u` plus `β[e]`. -/
theorem matTBias_row (x : S8192x768.Idx → EReal) (u : S768x768.Idx → EReal) (β' : S1x768.Idx → EReal)
    (X : S8x1024x768.Idx → EReal) (u' : S768x768.Idx → EReal) (β : S768.Idx → EReal)
    (b : Fin 8) (n : Fin 1024) (e : Fin 768) (r : Fin 8192)
    (hx : ∀ k : Fin 768, x (ix2 r k) = X (ix3 b n k)) (hu : ∀ k : Fin 768, u (ix2 e k) = u' (ix2 e k))
    (hβ : β' (ix2 (0 : Fin 1) e) = β (ix1 e)) :
    Cert.Attn.matTBias 8192 768 768 x u β' (ix2 r e) = Cert.Attn.rowsDot 768 X u' (ix3 b n e) + β (ix1 e) := by
  show (∑ k : Fin 768, x (ix2 r k) * u (ix2 e k)) + β' (ix2 (0 : Fin 1) e)
    = (∑ k : Fin 768, X (ix3 b n k) * u' (ix2 e k)) + β (ix1 e)
  rw [hβ]
  exact congrArg (· + β (ix1 e)) (Finset.sum_congr rfl fun k _ => by rw [hx k, hu k])

/-- The merged-row operand of the last launch: the attention launch's output, transposed and flattened. -/
theorem v13_eq (c : Dev nD) :
    (V5 (F := Ideal) m ρ c main_v13 : S8192x768.Idx → EReal)
      = shapeCast S8192x768 (transpose S8x1024x12x64 [0, 2, 1, 3] (W4 (F := Ideal) m ρ c (Proc.devRef .tc main_v11))
          transposes_S8x12x1024x64_S8x1024x12x64_0_2_1_3) shapeCasts_S8x1024x12x64_S8192x768 := by
  show StableHlo.after hostOps2 (W4 m ρ c) (Proc.devRef .tc main_v13) = _
  after_results
  rfl

/-- The bias operand of the last launch: the bias as a one-row matrix. -/
theorem v14_eq (c : Dev nD) :
    (V5 (F := Ideal) m ρ c main_v14 : S1x768.Idx → EReal)
      = shapeCast S1x768 (W4 (F := Ideal) m ρ c (Proc.devRef .tc main_arg3)) shapeCasts_S768_S1x768 := by
  show StableHlo.after hostOps2 (W4 m ρ c) (Proc.devRef .tc main_v14) = _
  after_results
  rfl

/-- The result: the last launch's output array with its rows split into `[8, 1024]`. -/
theorem v16_eq (c : Dev nD) :
    (W7 (F := Ideal) m ρ c (Proc.devRef .tc main_v16) : S8x1024x768.Idx → EReal)
      = shapeCast S8x1024x768 (W6 (F := Ideal) m ρ c (Proc.devRef .tc main_v15)) shapeCasts_S8192x768_S8x1024x768 := by
  show StableHlo.after hostOps3 (W6 m ρ c) (Proc.devRef .tc main_v16) = _
  after_results
  rfl

/-- The bias is as launched when the attention launch returns: no host operation before it writes the bias, and it is
    no array of the first two launches. -/
theorem W4_arg3 (c : Dev nD) :
    W4 (F := Ideal) m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.Forall, StableHlo.unary_writes, StableHlo.reshape_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.Forall, StableHlo.reshape_writes, Finset.mem_singleton]
          exact StableHlo.devRef_ne_of_ne (by decide)))
    _ = m ((c : Thread nD τ).loc main_arg3) := rfl

/-- The output projection's weight is as launched at the last launch's entry, for the same reasons. -/
theorem V5_arg2 (c : Dev nD) :
    V5 (F := Ideal) m ρ c main_arg2 = m ((c : Thread nD τ).loc main_arg2) :=
  calc W5 m ρ c (Proc.devRef .tc main_arg2)
    _ = W4 m ρ c (Proc.devRef .tc main_arg2) := StableHlo.after_of_forall_not_mem (b := Proc.devRef .tc main_arg2) _ _ (List.forall_iff_forall_mem.mp (by
          simp only [hostOps2, List.Forall, StableHlo.unary_writes, StableHlo.reshape_writes, Finset.mem_singleton]
          repeat' apply And.intro
          all_goals exact StableHlo.devRef_ne_of_ne (by decide)))
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.Forall, StableHlo.unary_writes, StableHlo.reshape_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.Forall, StableHlo.reshape_writes, Finset.mem_singleton]
          exact StableHlo.devRef_ne_of_ne (by decide)))
    _ = m ((c : Thread nD τ).loc main_arg2) := rfl

/-- What the last launch leaves in its output array, as its own module states it. -/
abbrev LastLaunch (c : Dev nD) : Prop :=
  (dat2 (F := Ideal) (V5 m ρ) c).arrAt 3 cfg2.N
    = Cert.Attn.matTBias 8192 768 768 (V5 m ρ c main_v13) (V5 m ρ c main_arg2) (V5 m ρ c main_v14)

/-- The result buffer, from whatever the attention launch left in its output array. -/
theorem result_of (c : Dev nD) (h2 : LastLaunch m ρ c) (A : (⟨4, ![8, 12, 1024, 64]⟩ : Shape).Idx → EReal)
    (hA : W4 (F := Ideal) m ρ c (Proc.devRef .tc main_v11) = A) :
    W7 (F := Ideal) m ρ c (Proc.devRef .tc main_v16)
      = fun i => Cert.Attn.rowsDot 768 (Cert.Attn.merged A) (m ((c.tc : Thread nD τ).loc main_arg2)) i + (m ((c.tc : Thread nD τ).loc main_arg3)) (ix1 (i 2)) := by
  subst hA
  funext i
  obtain ⟨b, n, e, rfl⟩ : ∃ (b : Fin 8) (n : Fin 1024) (e : Fin 768), i = ix3 b n e := ⟨i 0, i 1, i 2, eq_ix3 i⟩
  have hr : b.val * 1024 + n.val < 8192 := by have := b.isLt; have := n.isLt; omega
  -- the result at [b, n, e] is the last launch's output at row b · 1024 + n, column e
  have h15 : (W6 (F := Ideal) m ρ c (Proc.devRef .tc main_v15) : S8192x768.Idx → EReal)
      = Cert.Attn.matTBias 8192 768 768 (V5 m ρ c main_v13) (V5 m ρ c main_arg2) (V5 m ρ c main_v14) :=
    (W6_arr m ρ c 3).trans h2
  have hrow : (W7 (F := Ideal) m ρ c (Proc.devRef .tc main_v16) : S8x1024x768.Idx → EReal) (ix3 b n e)
      = Cert.Attn.matTBias 8192 768 768 (V5 m ρ c main_v13) (V5 m ρ c main_arg2) (V5 m ρ c main_v14)
          (ix2 (⟨b.val * 1024 + n.val, hr⟩ : Fin 8192) e) :=
    (congrFun (v16_eq m ρ c) (ix3 b n e)).trans
      ((split_read _ b n e ⟨b.val * 1024 + n.val, hr⟩ rfl).trans (congrFun h15 _))
  -- its three operands, each at an entry
  refine hrow.trans (matTBias_row _ _ _ _ _ _ b n e _ (fun k => ?_) (fun k => ?_) ?_)
  · exact (congrFun (v13_eq m ρ c) _).trans (merge_read _ b n k ⟨b.val * 1024 + n.val, hr⟩ rfl)
  · exact congrFun (V5_arg2 m ρ c) _
  · exact (congrFun (v14_eq m ρ c) _).trans ((bias_read _ e).trans (congrFun (W4_arg3 m ρ c) _))

end Cert.KernelIdeal.ChainB

end
-- ==== Proof.KernelValue.lean ====
/-
  The kernel's result, as a function of the launch arrays.

  The first launch leaves the fused projection `x · wᵀ`; its three thirds, cut into heads, are what the attention launch
  finds, so that launch leaves `core` of the three `heads` of the projection; the last launch projects the merged heads
  and adds the bias. Composed, the result buffer ends holding `block x w u β` of the four argument arrays as launched, on
  every weakly fair execution, and the arguments end unchanged.
-/
import proofs.«158285_j84585085927925_1_alg».proof.Proof.Region0
import proofs.«158285_j84585085927925_1_alg».proof.Proof.Region1
import proofs.«158285_j84585085927925_1_alg».proof.Proof.Region2
import proofs.«158285_j84585085927925_1_alg».proof.Proof.ChainA
import proofs.«158285_j84585085927925_1_alg».proof.Proof.ChainB
import proofs.«158285_j84585085927925_1_alg».proof.Proof.KernelRun

set_option maxRecDepth 16384

noncomputable section

namespace Cert.KernelIdeal.Result

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ) (ρ : Dev nD → PrngReg)

/-- The attention launch's output array: the attention of the three head-cut thirds of the fused projection. -/
theorem attention (c : Dev nD) :
    W4 (F := Ideal) m ρ c (Proc.devRef .tc main_v11)
      = Cert.Attn.core (Cert.Attn.heads 0 (by decide) (Cert.Attn.rowsDot 2304 (m ((c.tc : Thread nD τ).loc main_arg0)) (m ((c.tc : Thread nD τ).loc main_arg1))))
          (Cert.Attn.heads 768 (by decide) (Cert.Attn.rowsDot 2304 (m ((c.tc : Thread nD τ).loc main_arg0)) (m ((c.tc : Thread nD τ).loc main_arg1))))
          (Cert.Attn.heads 1536 (by decide) (Cert.Attn.rowsDot 2304 (m ((c.tc : Thread nD τ).loc main_arg0)) (m ((c.tc : Thread nD τ).loc main_arg1)))) := by
  have h0 : ChainA.FirstLaunch m ρ c := Region0.array (V1 m ρ) c
  rw [← ChainA.queries m ρ c h0, ← ChainA.keys m ρ c h0, ← ChainA.values m ρ c h0]
  exact (W4_arr m ρ c 3).trans (Region1.array (V3 m ρ) c)

/-- The result buffer ends holding the block of the launch arrays. -/
theorem value (c : Dev nD) :
    W7 (F := Ideal) m ρ c (Proc.devRef .tc main_v16) = Cert.Attn.block (m ((c.tc : Thread nD τ).loc main_arg0)) (m ((c.tc : Thread nD τ).loc main_arg1)) (m ((c.tc : Thread nD τ).loc main_arg2)) (m ((c.tc : Thread nD τ).loc main_arg3)) :=
  ChainB.result_of m ρ c (Region2.array (V5 m ρ) c) _ (attention m ρ c)

/-- The run: every weakly fair execution terminates with the result buffer at the block of the launch arrays and the
    arguments unchanged. -/
theorem run : θ_run defs (onTc (τ := τ) (main (F := Ideal))) ⟨m, fun _ => 0, ρ⟩ (fun r => ∀ c : Dev nD,
      r.2.mem ((c.tc : Thread nD τ).loc main_v16) = Cert.Attn.block (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (value m ρ c), (h c).2⟩) (Cert.KernelIdeal.Named.run_named m ρ)

end Cert.KernelIdeal.Result

end
-- ==== Proof.RefValue.lean ====
/-
  The reference, one operation at a time, is the attention block of the specification: its fused projection is
  `rowsDot`, its three slices cut into heads are `heads`, its two batched contractions with the scaling between them are
  `core` (the scale multiplies from the left there and from the right in the specification: multiplication commutes),
  its transpose and reshape are `merged`, and the last contraction plus the broadcast bias closes the block.
-/
import proofs.«158285_j84585085927925_1_alg».proof.Proof.Gen.ReferenceIdeal.Read
import proofs.«158285_j84585085927925_1_alg».proof.Proof.Spec
import Idealize.ShloMosaic.Lib.ValueIdx
import Idealize.ShloMosaic.PureOps.Ideal.Laws

set_option maxRecDepth 16384

noncomputable section

open scoped BigOperators

namespace Cert.ReferenceIdeal.RefValue

open Cert.ReferenceIdeal Cert.ReferenceIdeal.Read Idealize.ShloMosaic Idealize.ShloMosaic.TcCoe Idealize.ShloMosaic.ValueIdx

section Stages

variable (x : (⟨S8x1024x768, .f32⟩ : BufTy).Contents (Elt Ideal)) (w : (⟨S2304x768, .f32⟩ : BufTy).Contents (Elt Ideal))

/-- The fused projection: entry `(b, n, e)` of the first contraction is `Σ_k x[b, n, k] · w[e, k]`. -/
theorem projection_eq : val_main_v0 (F := Ideal) x w = Cert.Attn.rowsDot 2304 x w := by
  funext i
  obtain ⟨b, n, e, rfl⟩ : ∃ (b : Fin 8) (n : Fin 1024) (e : Fin 2304), i = ix3 b n e := ⟨i 0, i 1, i 2, eq_ix3 i⟩
  rw [val_main_v0_apply]
  show _ = ∑ k : Fin 768, x (ix3 b n k) * w (ix2 e k)
  refine Finset.sum_congr rfl fun k _ => ?_
  have el : lidx_main_v0 (ix3 b n e) k = ix3 b n k := funext fun a => Fin.ext (by
    match a with
    | ⟨0, _⟩ => rfl
    | ⟨1, _⟩ => rfl
    | ⟨2, _⟩ => rfl)
  have er : ridx_main_v0 (ix3 b n e) k = ix2 e k := funext fun a => Fin.ext (by
    match a with
    | ⟨0, _⟩ => rfl
    | ⟨1, _⟩ => rfl)
  rw [el, er]

/-- The queries: the first 768 columns of the projection, column `64·h + d` read as lane `d` of head `h`. The flat
    position of `[b, n, h, d]` in `[8, 1024, 12, 64]` is `((b·1024 + n)·12 + h)·64 + d`, which in `[8, 1024, 768]`
    is row `(b, n)` and column `h·64 + d`. -/
theorem queries_eq : val_main_v5 (F := Ideal) x w = Cert.Attn.heads 0 (by decide) (Cert.Attn.rowsDot 2304 x w) := by
  funext i
  obtain ⟨b, h, n, d, rfl⟩ : ∃ (b : Fin 8) (h : Fin 12) (n : Fin 1024) (d : Fin 64), i = ix4 b h n d :=
    ⟨i 0, i 1, i 2, i 3, eq_ix4 i⟩
  rw [val_main_v5_apply, val_main_v4_apply, val_main_v1_apply, projection_eq]
  generalize Cert.Attn.rowsDot 2304 x w = P
  have e : idx_main_v1 (idx_main_v4 (idx_main_v5 (ix4 b h n d))) = ix3 b n (Cert.Attn.headCol 0 (by decide) h d) :=
    funext fun a => Fin.ext (by
      have hb : b.val < 8 := b.isLt
      have hh : h.val < 12 := h.isLt
      have hn : n.val < 1024 := n.isLt
      have hd : d.val < 64 := d.isLt
      match a with
      | ⟨0, _⟩ => show (((b.val * 1024 + n.val) * 12 + h.val) * 64 + d.val) / 786432 = b.val; omega
      | ⟨1, _⟩ => show (((b.val * 1024 + n.val) * 12 + h.val) * 64 + d.val) / 768 % 1024 = n.val; omega
      | ⟨2, _⟩ => show (((b.val * 1024 + n.val) * 12 + h.val) * 64 + d.val) % 768 = 0 + (h.val * 64 + d.val); omega)
  rw [e]
  rfl

/-- The keys: the same cut of the second 768 columns. -/
theorem keys_eq : val_main_v7 (F := Ideal) x w = Cert.Attn.heads 768 (by decide) (Cert.Attn.rowsDot 2304 x w) := by
  funext i
  obtain ⟨b, h, n, d, rfl⟩ : ∃ (b : Fin 8) (h : Fin 12) (n : Fin 1024) (d : Fin 64), i = ix4 b h n d :=
    ⟨i 0, i 1, i 2, i 3, eq_ix4 i⟩
  rw [val_main_v7_apply, val_main_v6_apply, val_main_v2_apply, projection_eq]
  generalize Cert.Attn.rowsDot 2304 x w = P
  have e : idx_main_v2 (idx_main_v6 (idx_main_v7 (ix4 b h n d))) = ix3 b n (Cert.Attn.headCol 768 (by decide) h d) :=
    funext fun a => Fin.ext (by
      have hb : b.val < 8 := b.isLt
      have hh : h.val < 12 := h.isLt
      have hn : n.val < 1024 := n.isLt
      have hd : d.val < 64 := d.isLt
      match a with
      | ⟨0, _⟩ => show (((b.val * 1024 + n.val) * 12 + h.val) * 64 + d.val) / 786432 = b.val; omega
      | ⟨1, _⟩ => show (((b.val * 1024 + n.val) * 12 + h.val) * 64 + d.val) / 768 % 1024 = n.val; omega
      | ⟨2, _⟩ => show 768 + (((b.val * 1024 + n.val) * 12 + h.val) * 64 + d.val) % 768 = 768 + (h.val * 64 + d.val); omega)
  rw [e]
  rfl

/-- The values: the same cut of the last 768 columns. -/
theorem values_eq : val_main_v9 (F := Ideal) x w = Cert.Attn.heads 1536 (by decide) (Cert.Attn.rowsDot 2304 x w) := by
  funext i
  obtain ⟨b, h, n, d, rfl⟩ : ∃ (b : Fin 8) (h : Fin 12) (n : Fin 1024) (d : Fin 64), i = ix4 b h n d :=
    ⟨i 0, i 1, i 2, i 3, eq_ix4 i⟩
  rw [val_main_v9_apply, val_main_v8_apply, val_main_v3_apply, projection_eq]
  generalize Cert.Attn.rowsDot 2304 x w = P
  have e : idx_main_v3 (idx_main_v8 (idx_main_v9 (ix4 b h n d))) = ix3 b n (Cert.Attn.headCol 1536 (by decide) h d) :=
    funext fun a => Fin.ext (by
      have hb : b.val < 8 := b.isLt
      have hh : h.val < 12 := h.isLt
      have hn : n.val < 1024 := n.isLt
      have hd : d.val < 64 := d.isLt
      match a with
      | ⟨0, _⟩ => show (((b.val * 1024 + n.val) * 12 + h.val) * 64 + d.val) / 786432 = b.val; omega
      | ⟨1, _⟩ => show (((b.val * 1024 + n.val) * 12 + h.val) * 64 + d.val) / 768 % 1024 = n.val; omega
      | ⟨2, _⟩ => show 1536 + (((b.val * 1024 + n.val) * 12 + h.val) * 64 + d.val) % 768 = 1536 + (h.val * 64 + d.val); omega)
  rw [e]
  rfl

/-- The two batched contractions with the scaling between them: the scores `Σ_δ q[b,h,n,δ] · k[b,h,j,δ]` are multiplied
    by the constant from the left, and the specification multiplies from the right. -/
theorem attention_eq : val_main_v13 (F := Ideal) x w
    = Cert.Attn.core (val_main_v5 (F := Ideal) x w) (val_main_v7 (F := Ideal) x w) (val_main_v9 (F := Ideal) x w) := by
  funext i
  obtain ⟨b, h, n, d, rfl⟩ : ∃ (b : Fin 8) (h : Fin 12) (n : Fin 1024) (d : Fin 64), i = ix4 b h n d :=
    ⟨i 0, i 1, i 2, i 3, eq_ix4 i⟩
  rw [val_main_v13_apply]
  show _ = ∑ j : Fin 1024, ((∑ δ : Fin 64, val_main_v5 (F := Ideal) x w (ix4 b h n δ) * val_main_v7 (F := Ideal) x w (ix4 b h j δ))
    * Cert.Attn.eight) * val_main_v9 (F := Ideal) x w (ix4 b h j d)
  refine Finset.sum_congr rfl fun j _ => ?_
  rw [val_main_v12_apply, val_main_v11_apply, val_main_cst_apply, val_main_v10_apply, Ideal.mulf_def, Ideal.ofBits_def]
  generalize val_main_v5 (F := Ideal) x w = q
  generalize val_main_v7 (F := Ideal) x w = k
  generalize val_main_v9 (F := Ideal) x w = v
  have ev : ridx_main_v13 (ix4 b h n d) j = ix4 b h j d := funext fun a => Fin.ext (by
    match a with
    | ⟨0, _⟩ => rfl
    | ⟨1, _⟩ => rfl
    | ⟨2, _⟩ => rfl
    | ⟨3, _⟩ => rfl)
  have es : ∀ δ : Fin 64, q (lidx_main_v10 (lidx_main_v13 (ix4 b h n d) j) δ) * k (ridx_main_v10 (lidx_main_v13 (ix4 b h n d) j) δ)
      = q (ix4 b h n δ) * k (ix4 b h j δ) := fun δ => by
    have eq : lidx_main_v10 (lidx_main_v13 (ix4 b h n d) j) δ = ix4 b h n δ := funext fun a => Fin.ext (by
      match a with
      | ⟨0, _⟩ => rfl
      | ⟨1, _⟩ => rfl
      | ⟨2, _⟩ => rfl
      | ⟨3, _⟩ => rfl)
    have ek : ridx_main_v10 (lidx_main_v13 (ix4 b h n d) j) δ = ix4 b h j δ := funext fun a => Fin.ext (by
      match a with
      | ⟨0, _⟩ => rfl
      | ⟨1, _⟩ => rfl
      | ⟨2, _⟩ => rfl
      | ⟨3, _⟩ => rfl)
    rw [eq, ek]
  rw [ev, Finset.sum_congr rfl fun δ _ => es δ, mul_comm (Ideal.ofBits .f32 0x41000000#32)]

/-- The transpose and the reshape lay the heads side by side: the flat position `(b·1024 + n)·768 + c` in
    `[8, 1024, 12, 64]` is `[b, n, c / 64, c % 64]`. -/
theorem merge_eq : val_main_v15 (F := Ideal) x w = Cert.Attn.merged (val_main_v13 (F := Ideal) x w) := by
  funext i
  obtain ⟨b, n, c, rfl⟩ : ∃ (b : Fin 8) (n : Fin 1024) (c : Fin 768), i = ix3 b n c := ⟨i 0, i 1, i 2, eq_ix3 i⟩
  rw [val_main_v15_apply, val_main_v14_apply]
  generalize val_main_v13 (F := Ideal) x w = A
  have e : idx_main_v14 (idx_main_v15 (ix3 b n c)) = ix4 b (Cert.Attn.colHead c) n (Cert.Attn.colLane c) :=
    funext fun a => Fin.ext (by
      have hb : b.val < 8 := b.isLt
      have hn : n.val < 1024 := n.isLt
      have hc : c.val < 768 := c.isLt
      match a with
      | ⟨0, _⟩ => show ((b.val * 1024 + n.val) * 768 + c.val) / 786432 = b.val; omega
      | ⟨1, _⟩ => show ((b.val * 1024 + n.val) * 768 + c.val) / 64 % 12 = c.val / 64; omega
      | ⟨2, _⟩ => show ((b.val * 1024 + n.val) * 768 + c.val) / 768 % 1024 = n.val; omega
      | ⟨3, _⟩ => show ((b.val * 1024 + n.val) * 768 + c.val) % 64 = c.val % 64; omega)
  rw [e]
  rfl

/-- Everything before the output projection, in the specification's words. -/
theorem merged_attention_eq : val_main_v15 (F := Ideal) x w
    = Cert.Attn.merged (Cert.Attn.core (Cert.Attn.heads 0 (by decide) (Cert.Attn.rowsDot 2304 x w))
        (Cert.Attn.heads 768 (by decide) (Cert.Attn.rowsDot 2304 x w))
        (Cert.Attn.heads 1536 (by decide) (Cert.Attn.rowsDot 2304 x w))) := by
  rw [merge_eq, attention_eq, queries_eq, keys_eq, values_eq]

end Stages

/-- The reference's result, as a function of its four arguments, is the block. -/
theorem result (x : (⟨S8x1024x768, .f32⟩ : BufTy).Contents (Elt Ideal)) (w : (⟨S2304x768, .f32⟩ : BufTy).Contents (Elt Ideal))
    (u : (⟨S768x768, .f32⟩ : BufTy).Contents (Elt Ideal)) (β : (⟨S768, .f32⟩ : BufTy).Contents (Elt Ideal)) :
    val_main_v19 (F := Ideal) x w u β = Cert.Attn.block x w u β := by
  funext i
  obtain ⟨b, n, e, rfl⟩ : ∃ (b : Fin 8) (n : Fin 1024) (e : Fin 768), i = ix3 b n e := ⟨i 0, i 1, i 2, eq_ix3 i⟩
  rw [val_main_v19_apply, val_main_v16_apply, val_main_v18_apply, val_main_v17_apply, Ideal.addf_def,
    merged_attention_eq]
  unfold Cert.Attn.block
  generalize Cert.Attn.merged (Cert.Attn.core (Cert.Attn.heads 0 (by decide) (Cert.Attn.rowsDot 2304 x w))
        (Cert.Attn.heads 768 (by decide) (Cert.Attn.rowsDot 2304 x w))
        (Cert.Attn.heads 1536 (by decide) (Cert.Attn.rowsDot 2304 x w))) = M
  show _ = (∑ k : Fin 768, M (ix3 b n k) * u (ix2 e k)) + β (ix1 e)
  have eb : idx_main_v17 (idx_main_v18 (ix3 b n e)) = ix1 e := funext fun a => Fin.ext (by
    match a with
    | ⟨0, _⟩ => rfl)
  have es : ∀ k : Fin 768, M (lidx_main_v16 (ix3 b n e) k) * u (ridx_main_v16 (ix3 b n e) k)
      = M (ix3 b n k) * u (ix2 e k) := fun k => by
    have el : lidx_main_v16 (ix3 b n e) k = ix3 b n k := funext fun a => Fin.ext (by
      match a with
      | ⟨0, _⟩ => rfl
      | ⟨1, _⟩ => rfl
      | ⟨2, _⟩ => rfl)
    have er : ridx_main_v16 (ix3 b n e) k = ix2 e k := funext fun a => Fin.ext (by
      match a with
      | ⟨0, _⟩ => rfl
      | ⟨1, _⟩ => rfl)
    rw [el, er]
  rw [eb, Finset.sum_congr rfl fun k _ => es k]

end Cert.ReferenceIdeal.RefValue

end
-- ==== Proof.lean ====
/-
  An attention block without softmax, as three launches — the fused q/k/v projection `x · wᵀ`, per head
  `(q · kᵀ · 8) · v`, and the output projection `a · uᵀ + β` — against the same block written with four contractions on
  whole arrays.

  Over the extended reals both programs compute `Cert.Attn.block x w u β` (Proof/Spec.lean): a change of float format is
  the identity, a product into a zero accumulator is the plain sum of products, and tiling a contraction's free axes
  changes nothing. The only algebra between the two sides is that the scale 8 = √64 multiplies the scores from the right
  in the kernel and from the left in the reference; no law that needs finite inputs is used, so the precondition is
  never opened.

  The kernel's side: each launch's whole output array (Proof/Region0.lean, Region1.lean, Region2.lean), the reshapes,
  slices and transposes between the launches read at an entry (Proof/ChainA.lean, ChainB.lean), composed over the run of
  @main (Proof/KernelRun.lean, Proof/KernelValue.lean). The reference's side: its run one operation at a time
  (Proof/RefValue.lean). The pass that idealized the kernel rewrote nothing, so `preserves` has no conjunct.
-/
import proofs.«158285_j84585085927925_1_alg».proof.Defs
import proofs.«158285_j84585085927925_1_alg».proof.Proof.Gen.Kernel
import proofs.«158285_j84585085927925_1_alg».proof.Proof.Gen.Kernel.Skeleton
import proofs.«158285_j84585085927925_1_alg».proof.Proof.Gen.Kernel.Launch
import proofs.«158285_j84585085927925_1_alg».proof.Proof.Gen.Kernel.Points
import proofs.«158285_j84585085927925_1_alg».proof.Proof.Gen.Kernel.Frame
import proofs.«158285_j84585085927925_1_alg».proof.Proof.Gen.KernelIdeal
import proofs.«158285_j84585085927925_1_alg».proof.Proof.Gen.KernelIdeal.Skeleton
import proofs.«158285_j84585085927925_1_alg».proof.Proof.Gen.KernelIdeal.Launch
import proofs.«158285_j84585085927925_1_alg».proof.Proof.Gen.KernelIdeal.Points
import proofs.«158285_j84585085927925_1_alg».proof.Proof.Gen.KernelIdeal.Frame
import proofs.«158285_j84585085927925_1_alg».proof.Proof.Gen.ReferenceIdeal
import proofs.«158285_j84585085927925_1_alg».proof.Proof.Gen.ReferenceIdeal.Run
import proofs.«158285_j84585085927925_1_alg».proof.Proof.Gen.ReferenceIdeal.Read
import proofs.«158285_j84585085927925_1_alg».proof.Proof.Gen.Pre_finite_inputs
import proofs.«158285_j84585085927925_1_alg».proof.Proof.KernelValue
import proofs.«158285_j84585085927925_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the four arguments both programs end with the block of those arguments. -/
theorem algebraic : Cert.algebraic_KernelIdeal_ReferenceIdeal := by
  intro m ρ m' ρ' _ hagree
  refine ⟨fun c => Cert.Attn.block (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)), Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, Cert.ReferenceIdeal.RefValue.result, (hagree c).1, (hagree c).2.1,
    (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
